-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x125388 : Shape := ⟨2, ![1024, 125388]⟩
abbrev S125388x256 : Shape := ⟨2, ![125388, 256]⟩
abbrev S256 : Shape := ⟨1, ![256]⟩
abbrev S512x32 : Shape := ⟨2, ![512, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S1024x125388 : S_.BroadcastsInDim S1024x125388 (![] : Fin 0 → Fin S1024x125388.rank)
  reducesTo_S1024x125388_S_d0_1 : S1024x125388.ReducesTo [0, 1] S_
  h_S_ : 0 < S_.numel
  bcast_S_S125388x256 : S_.BroadcastsInDim S125388x256 (![] : Fin 0 → Fin S125388x256.rank)
  reducesTo_S125388x256_S_d0_1 : S125388x256.ReducesTo [0, 1] S_
  bcast_S_S256 : S_.BroadcastsInDim S256 (![] : Fin 0 → Fin S256.rank)
  reducesTo_S256_S_d0 : S256.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S32x1 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S512x32 .f32) (main_arg5 : FVec F S32 .f32) (main_arg6 : FVec F S32x32 .f32) (main_arg7 : FVec F S32 .f32) (main_arg8 : FVec F S32x1 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x32 .f32 := Host.absf main_arg4
  let main_cst_6 : FVec F S_ .f32 := constant S_ .f32 0x7F800000#32
  let main_v20 : FVec F S512x32 .f32 := broadcastInDim S512x32 ![] bcast_S_S512x32 main_cst_6
  let main_v21 : IVec S512x32 1 := cmpf .olt main_v19 main_v20
  let main_c_7 : IVec S_ 1 := constantI S_ 1 1#1
  let main_v22 : IVec S_ 1 := (fun x v => Host.reduce IntOp.andi x v reducesTo_S512x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S1024x125388 .f32) (main_arg1 : FVec F S1024x125388 .f32) (main_arg2 : FVec F S125388x256 .f32) (main_arg3 : FVec F S256 .f32) (main_arg4 : FVec F S512x32 .f32) (main_arg5 : FVec F S32 .f32) (main_arg6 : FVec F S32x32 .f32) (main_arg7 : FVec F S32 .f32) (main_arg8 : FVec F S32x1 .f32) (main_arg9 : FVec F S1 .f32) : IVec S_ 1 :=
  let main_v0 : FVec F S1024x125388 .f32 := Host.absf main_arg0
  let main_cst : FVec F S_ .f32 := constant S_ .f32 0x7F800000#32
  let main_v1 : FVec F S1024x125388 .f32 := broadcastInDim S1024x125388 ![] bcast_S_S1024x125388 main_cst
  let main_v2 : IVec S1024x125388 1 := cmpf .olt main_v0 main_v1
  let main_c : IVec S_ 1 := constantI S_ 1 1#1
  let main_v3 : IVec S_ 1 := (fun x v => Host.reduce IntOp.andi x v reducesTo_S1024x125388_S_d0_1 h_S_) main_v2 main_c
  let main_v4 : FVec F S1024x125388 .f32 := Host.absf main_arg1
  let main_cst_0 : FVec F S_ .f32 := constant S_ .f32 0x7F800000#32
  let main_v5 : FVec F S1024x125388 .f32 := broadcastInDim S1024x125388 ![] bcast_S_S1024x125388 main_cst_0
  let main_v6 : IVec S1024x125388 1 := cmpf .olt main_v4 main_v5
  let main_c_1 : IVec S_ 1 := constantI S_ 1 1#1
  let main_v7 : IVec S_ 1 := (fun x v => Host.reduce IntOp.andi x v reducesTo_S1024x125388_S_d0_1 h_S_) main_v6 main_c_1
  let main_v8 : IVec S_ 1 := andi main_v3 main_v7
  let main_v9 : FVec F S125388x256 .f32 := Host.absf main_arg2
  let main_cst_2 : FVec F S_ .f32 := constant S_ .f32 0x7F800000#32
  let main_v10 : FVec F S125388x256 .f32 := broadcastInDim S125388x256 ![] bcast_S_S125388x256 main_cst_2
  let main_v11 : IVec S125388x256 1 := cmpf .olt main_v9 main_v10
  let main_c_3 : IVec S_ 1 := constantI S_ 1 1#1
  let main_v12 : IVec S_ 1 := (fun x v => Host.reduce IntOp.andi x v reducesTo_S125388x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S1024x125388 : Shape := ⟨2, ![1024, 125388]⟩
abbrev S125388x256 : Shape := ⟨2, ![125388, 256]⟩
abbrev S256 : Shape := ⟨1, ![256]⟩
abbrev S512x32 : Shape := ⟨2, ![512, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1024x76 : Shape := ⟨2, ![1024, 76]⟩
abbrev S76x256 : Shape := ⟨2, ![76, 256]⟩
abbrev S1024x1 : Shape := ⟨2, ![1024, 1]⟩
abbrev S1024x1408 : Shape := ⟨2, ![1024, 1408]⟩
abbrev S1408x256 : Shape := ⟨2, ![1408, 256]⟩
abbrev S1024x256 : Shape := ⟨2, ![1024, 256]⟩
abbrev S1x256 : Shape := ⟨2, ![1, 256]⟩
abbrev S1024x512 : Shape := ⟨2, ![1024, 512]⟩
abbrev S1024x32 : Shape := ⟨2, ![1024, 32]⟩
abbrev S1x32 : Shape := ⟨2, ![1, 32]⟩
abbrev S1x1 : Shape := ⟨2, ![1, 1]⟩

abbrev nBuf : Space → Nat
  | .hbm => 14
  | .vmem => 19
  | .smem => 0
  | _ => 0

abbrev bufTy : (tb : Table) → Fin (tcTables nBuf tb) → BufTy
  | .hbm, ⟨0, _⟩ => ⟨S1024x125388, .f32⟩
  | .hbm, ⟨1, _⟩ => ⟨S1024x125388, .f32⟩
  | .hbm, ⟨2, _⟩ => ⟨S125388x256, .f32⟩
  | .hbm, ⟨3, _⟩ => ⟨S256, .f32⟩
  | .hbm, ⟨4, _⟩ => ⟨S512x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1024x76, .f32⟩
  | .hbm, ⟨11, _⟩ => ⟨S1024x76, .f32⟩
  | .hbm, ⟨12, _⟩ => ⟨S76x256, .f32⟩
  | .hbm, ⟨13, _⟩ => ⟨S1024x1, .f32⟩
  | .local _ .vmem, ⟨0, _⟩ => ⟨S1024x1408, .f32⟩
  | .local _ .vmem, ⟨1, _⟩ => ⟨S1024x1408, .f32⟩
  | .local _ .vmem, ⟨2, _⟩ => ⟨S1024x1408, .f32⟩
  | .local _ .vmem, ⟨3, _⟩ => ⟨S1024x1408, .f32⟩
  | .local _ .vmem, ⟨4, _⟩ => ⟨S1408x256, .f32⟩
  | .local _ .vmem, ⟨5, _⟩ => ⟨S1408x256, .f32⟩
  | .local _ .vmem, ⟨6, _⟩ => ⟨S1024x76, .f32⟩
  | .local _ .vmem, ⟨7, _⟩ => ⟨S1024x76, .f32⟩
  | .local _ .vmem, ⟨8, _⟩ => ⟨S76x256, .f32⟩
  | .local _ .vmem, ⟨9, _⟩ => ⟨S256, .f32⟩
  | .local _ .vmem, ⟨10, _⟩ => ⟨S512x32, .f32⟩
  | .local _ .vmem, ⟨11, _⟩ => ⟨S32, .f32⟩
  | .local _ .vmem, ⟨12, _⟩ => ⟨S32x32, .f32⟩
  | .local _ .vmem, ⟨13, _⟩ => ⟨S32, .f32⟩
  | .local _ .vmem, ⟨14, _⟩ => ⟨S32x1, .f32⟩
  | .local _ .vmem, ⟨15, _⟩ => ⟨S1, .f32⟩
  | .local _ .vmem, ⟨16, _⟩ => ⟨S1024x1, .f32⟩
  | .local _ .vmem, ⟨17, _⟩ => ⟨S1024x256, .f32⟩
  | .local _ .vmem, ⟨18, _⟩ => ⟨S1024x256, .f32⟩
  | _, _ => ⟨S1024x125388, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![89], ![false]⟩

def k0_cond2 (i : grid0.Coords) : BitVec 1 :=
  let arg0 : BitVec 32 := BitVec.ofNat 32 (i 0).val
  let c88_i32 : BitVec 32 := 88#32
  let v21 : BitVec 1 := Scalar.cmpi .eq arg0 c88_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1408x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x76 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x76 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S76x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  slices_S1024x125388_S1024x76_0_125312 : S1024x125388.Slices ![0, 125312] S1024x76
  slices_S125388x256_S76x256_125312_0 : S125388x256.Slices ![125312, 0] S76x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1408_S1024x1408_0_0 : ∀ a, (![0, 0] : Fin 2 → Nat) a + S1024x1408.size a ≤ S1024x1408.size a
  h_S1024x1408 : 0 < S1024x1408.numel
  bitsLt_bf16_f32 : FTy.bits .bf16 < FTy.bits .f32
  inb_S1408x256_S1408x256_0_0 : ∀ a, (![0, 0] : Fin 2 → Nat) a + S1408x256.size a ≤ S1408x256.size a
  h_S1408x256 : 0 < S1408x256.numel
  inb_S1024x76_S1024x76_0_0 : ∀ a, (![0, 0] : Fin 2 → Nat) a + S1024x76.size a ≤ S1024x76.size a
  h_S1024x76 : 0 < S1024x76.numel
  shapeCasts_S1024x76_S1024x76 : S1024x76.ShapeCasts S1024x76
  inb_S76x256_S76x256_0_0 : ∀ a, (![0, 0] : Fin 2 → Nat) a + S76x256.size a ≤ S76x256.size a
  h_S76x256 : 0 < S76x256.numel
  shapeCasts_S76x256_S76x256 : S76x256.ShapeCasts S76x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  concatenates_S1024x256_S1024x256_S1024x512_d1 : Shape.Concatenates [S1024x256, S1024x256] S1024x512 1
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1408_S1408x256_S1024x256_1_0_0_1_n_n_wf : DotDims.WF S1024x1408 S1408x256 S1024x256 [1] [0] [0] [1] [] []
  dot_S1024x76_S76x256_S1024x256_1_0_0_1_n_n_wf : DotDims.WF S1024x76 S76x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1024x1408.size a < S1024x125388.size a
  hwx0_0 : ∀ i : grid0.Coords, EltTy.bits .f32 = 32 ∨ (Rect.unit (s := S1024x125388) (fun a => cc0_transform_0 i a * S1024x1408.size a) (fun a => (Pipeline.Clip.of (cc0_transform_0 i a) (S1024x1408.size a) (S1024x125388.size a)).extent (S1024x1408.size a)) fun a => Pipeline.Clip.inb (Pipeline.Clip.ok_of (hstart0_0 i a))).WholeWords (EltTy.packing .f32)
  hwxs0_0 : ∀ i : grid0.Coords, EltTy.bits .f32 = 32 ∨ (Rect.unit (s := S1024x1408) (fun _ => 0) (fun a => (Pipeline.Clip.of (cc0_transform_0 i a) (S1024x1408.size a) (S1024x125388.size a)).extent (S1024x1408.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1408.size a < S1024x125388.size a
  hwx0_1 : ∀ i : grid0.Coords, EltTy.bits .f32 = 32 ∨ (Rect.unit (s := S1024x125388) (fun a => cc0_transform_1 i a * S1024x1408.size a) (fun a => (Pipeline.Clip.of (cc0_transform_1 i a) (S1024x1408.size a) (S1024x125388.size a)).extent (S1024x1408.size a)) fun a => Pipeline.Clip.inb (Pipeline.Clip.ok_of (hstart0_1 i a))).WholeWords (EltTy.packing .f32)
  hwxs0_1 : ∀ i : grid0.Coords, EltTy.bits .f32 = 32 ∨ (Rect.unit (s := S1024x1408) (fun _ => 0) (fun a => (Pipeline.Clip.of (cc0_transform_1 i a) (S1024x1408.size a) (S1024x125388.size a)).extent (S1024x1408.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1408x256.size a < S125388x256.size a
  hwx0_2 : ∀ i : grid0.Coords, EltTy.bits .f32 = 32 ∨ (Rect.unit (s := S125388x256) (fun a => cc0_transform_2 i a * S1408x256.size a) (fun a => (Pipeline.Clip.of (cc0_transform_2 i a) (S1408x256.size a) (S125388x256.size a)).extent (S1408x256.size a)) fun a => Pipeline.Clip.inb (Pipeline.Clip.ok_of (hstart0_2 i a))).WholeWords (EltTy.packing .f32)
  hwxs0_2 : ∀ i : grid0.Coords, EltTy.bits .f32 = 32 ∨ (Rect.unit (s := S1408x256) (fun _ => 0) (fun a => (Pipeline.Clip.of (cc0_transform_2 i a) (S1408x256.size a) (S125388x256.size a)).extent (S1408x256.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x76.size a ≤ S1024x76.size a
  hwx0_3 : ∀ i : grid0.Coords, EltTy.bits .f32 = 32 ∨ (Rect.block (s := S1024x76) S1024x76.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x76.size a ≤ S1024x76.size a
  hwx0_4 : ∀ i : grid0.Coords, EltTy.bits .f32 = 32 ∨ (Rect.block (s := S1024x76) S1024x76.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S76x256.size a ≤ S76x256.size a
  hwx0_5 : ∀ i : grid0.Coords, EltTy.bits .f32 = 32 ∨ (Rect.block (s := S76x256) S76x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x32.size a ≤ S512x32.size a
  hwx0_7 : ∀ i : grid0.Coords, EltTy.bits .f32 = 32 ∨ (Rect.block (s := S512x32) S512x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1.size a ≤ S32x1.size a
  hwx0_11 : ∀ i : grid0.Coords, EltTy.bits .f32 = 32 ∨ (Rect.block (s := S32x1) S32x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1.size a ≤ S1024x1.size a
  hwx0_13 : ∀ i : grid0.Coords, EltTy.bits .f32 = 32 ∨ (Rect.block (s := S1024x1) S1024x1.size (cc0_transform_13 i) (hinb0_13 i)).WholeWords (EltTy.packing .f32)

variable [Facts₀]

def dot_S1024x1408_S1408x256_S1024x256_1_0_0_1_n_n : DotDims S1024x1408 S1408x256 S1024x256 where
  lhsContracting := [1]
  rhsContracting := [0]
  lhsNonContracting := [0]
  rhsNonContracting := [1]
  lhsBatch := []
  rhsBatch := []
  wf := dot_S1024x1408_S1408x256_S1024x256_1_0_0_1_n_n_wf
def dot_S1024x76_S76x256_S1024x256_1_0_0_1_n_n : DotDims S1024x76 S76x256 S1024x256 where
  lhsContracting := [1]
  rhsContracting := [0]
  lhsNonContracting := [0]
  rhsNonContracting := [1]
  lhsBatch := []
  rhsBatch := []
  wf := dot_S1024x76_S76x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpecClip (Memref.whole main_arg0) S1024x1408.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S1024x1408.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S1408x256.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S1024x76.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x76.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S76x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S512x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S32x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1024x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S1024x125388 : Shape := ⟨2, ![1024, 125388]⟩
abbrev S125388x256 : Shape := ⟨2, ![125388, 256]⟩
abbrev S256 : Shape := ⟨1, ![256]⟩
abbrev S512x32 : Shape := ⟨2, ![512, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1024x256 : Shape := ⟨2, ![1024, 256]⟩
abbrev S1x256 : Shape := ⟨2, ![1, 256]⟩
abbrev S1024x512 : Shape := ⟨2, ![1024, 512]⟩
abbrev S_ : Shape := ⟨0, ![]⟩
abbrev S1024x32 : Shape := ⟨2, ![1024, 32]⟩
abbrev S1x32 : Shape := ⟨2, ![1, 32]⟩
abbrev S1024x1 : Shape := ⟨2, ![1024, 1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S1024x125388, .f32⟩
  | .hbm, ⟨1, _⟩ => ⟨S1024x125388, .f32⟩
  | .hbm, ⟨2, _⟩ => ⟨S125388x256, .f32⟩
  | .hbm, ⟨3, _⟩ => ⟨S256, .f32⟩
  | .hbm, ⟨4, _⟩ => ⟨S512x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1024x256, .f32⟩
  | .hbm, ⟨11, _⟩ => ⟨S1x256, .f32⟩
  | .hbm, ⟨12, _⟩ => ⟨S1024x256, .f32⟩
  | .hbm, ⟨13, _⟩ => ⟨S1024x256, .f32⟩
  | .hbm, ⟨14, _⟩ => ⟨S1024x256, .f32⟩
  | .hbm, ⟨15, _⟩ => ⟨S1x256, .f32⟩
  | .hbm, ⟨16, _⟩ => ⟨S1024x256, .f32⟩
  | .hbm, ⟨17, _⟩ => ⟨S1024x256, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x32, .f32⟩
  | .hbm, ⟨28, _⟩ => ⟨S1x32, .f32⟩
  | .hbm, ⟨29, _⟩ => ⟨S1024x32, .f32⟩
  | .hbm, ⟨30, _⟩ => ⟨S1024x32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1024x32, .f32⟩
  | .hbm, ⟨35, _⟩ => ⟨S1024x32, .f32⟩
  | .hbm, ⟨36, _⟩ => ⟨S_, .f32⟩
  | .hbm, ⟨37, _⟩ => ⟨S1024x32, .f32⟩
  | .hbm, ⟨38, _⟩ => ⟨S1024x32, .f32⟩
  | .hbm, ⟨39, _⟩ => ⟨S1024x32, .f32⟩
  | .hbm, ⟨40, _⟩ => ⟨S1x32, .f32⟩
  | .hbm, ⟨41, _⟩ => ⟨S1024x32, .f32⟩
  | .hbm, ⟨42, _⟩ => ⟨S1024x32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024x32, .f32⟩
  | .hbm, ⟨47, _⟩ => ⟨S1024x32, .f32⟩
  | .hbm, ⟨48, _⟩ => ⟨S_, .f32⟩
  | .hbm, ⟨49, _⟩ => ⟨S1024x32, .f32⟩
  | .hbm, ⟨50, _⟩ => ⟨S1024x32, .f32⟩
  | .hbm, ⟨51, _⟩ => ⟨S1024x1, .f32⟩
  | .hbm, ⟨52, _⟩ => ⟨S1x1, .f32⟩
  | .hbm, ⟨53, _⟩ => ⟨S1024x1, .f32⟩
  | .hbm, ⟨54, _⟩ => ⟨S1024x1, .f32⟩
  | _, _ => ⟨S1024x125388, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_3 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  concatenates_S1024x256_S1024x256_S1024x512_d1 : Shape.Concatenates [S1024x256, S1024x256] S1024x512 1
  bcast_S_S1024x512 : S_.BroadcastsInDim S1024x512 (![] : Fin 0 → Fin S1024x512.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x125388_S125388x256_S1024x256_1_0_0_1_n_n_wf : DotDims.WF S1024x125388 S125388x256 S1024x256 [1] [0] [0] [1] [] []
  dot_S1024x512_S512x32_S1024x32_1_0_0_1_n_n_wf : DotDims.WF S1024x512 S512x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []

variable [Facts₀]

def dot_S1024x125388_S125388x256_S1024x256_1_0_0_1_n_n : DotDims S1024x125388 S125388x256 S1024x256 where
  lhsContracting := [1]
  rhsContracting := [0]
  lhsNonContracting := [0]
  rhsNonContracting := [1]
  lhsBatch := []
  rhsBatch := []
  wf := dot_S1024x125388_S125388x256_S1024x256_1_0_0_1_n_n_wf
def dot_S1024x512_S512x32_S1024x32_1_0_0_1_n_n : DotDims S1024x512 S512x32 S1024x32 where
  lhsContracting := [1]
  rhsContracting := [0]
  lhsNonContracting := [0]
  rhsNonContracting := [1]
  lhsBatch := []
  rhsBatch := []
  wf := dot_S1024x512_S512x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

class Facts : Prop extends Facts₀ where

variable [Facts]
-- ==== Proof.BodyDefs.lean ====
/-
  The values the kernel's run carries, as pure functions of the argument arrays as the region finds them.

  The grid has 89 points. Point `t` is handed columns 1408·t … 1408·t + 1407 of each of the two inputs and rows
  1408·t … 1408·t + 1407 of the input matrix; the two scratch accumulators are zeroed at point 0 and each point
  adds its block product to them; the last point adds the product of the remaining 76 columns, the bias, and runs
  the three small layers on the result.
-/
import proofs.«102448_j19670950215787_1_alg».proof.Proof.Gen.KernelIdeal.Frame
import proofs.«102448_j19670950215787_1_alg».proof.Proof.Gen.KernelIdeal.Skeleton

noncomputable section

namespace Cert.KI

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The three moving windows' staging contents at point `t`: the block of the array the fetch lands, on the
    whole buffer (at every point of this grid the block lies inside its array, so the fetch fills all of it;
    the filler is never read). -/
def blkX1 (c : Dev nD) (t : Fin cfg0.N) : Vec F S1024x1408 .f32 :=
  win0_0.fill (grid0.coords t) (fun _ => Scalar.ofBits .f32 0#32) (iblk m c 0 t)
def blkX2 (c : Dev nD) (t : Fin cfg0.N) : Vec F S1024x1408 .f32 :=
  win0_1.fill (grid0.coords t) (fun _ => Scalar.ofBits .f32 0#32) (iblk m c 1 t)
def blkW (c : Dev nD) (t : Fin cfg0.N) : Vec F S1408x256 .f32 :=
  win0_2.fill (grid0.coords t) (fun _ => Scalar.ofBits .f32 0#32) (iblk m c 2 t)

/-- The first accumulator after point `n`: zero plus the block products of points 0 … n. -/
def acc1 (c : Dev nD) : ℕ → FVec F S1024x256 .f32
  | 0 => k0_pay4 (blkX1 m c ⟨0, by decide⟩) (blkW m c ⟨0, by decide⟩) k0_pay1
  | n + 1 => if h : n + 1 < cfg0.N then k0_pay4 (blkX1 m c ⟨n + 1, h⟩) (blkW m c ⟨n + 1, h⟩) (acc1 c n) else acc1 c n

/-- The second accumulator after point `n`. -/
def acc2 (c : Dev nD) : ℕ → FVec F S1024x256 .f32
  | 0 => k0_pay5 (blkX2 m c ⟨0, by decide⟩) (blkW m c ⟨0, by decide⟩) k0_pay2
  | n + 1 => if h : n + 1 < cfg0.N then k0_pay5 (blkX2 m c ⟨n + 1, h⟩) (blkW m c ⟨n + 1, h⟩) (acc2 c n) else acc2 c n

theorem acc1_succ (c : Dev nD) (n : ℕ) (h : n + 1 < cfg0.N) :
    acc1 m c (n + 1) = k0_pay4 (blkX1 m c ⟨n + 1, h⟩) (blkW m c ⟨n + 1, h⟩) (acc1 m c n) := by
  rw [acc1]; exact dif_pos h

theorem acc2_succ (c : Dev nD) (n : ℕ) (h : n + 1 < cfg0.N) :
    acc2 m c (n + 1) = k0_pay5 (blkX2 m c ⟨n + 1, h⟩) (blkW m c ⟨n + 1, h⟩) (acc2 m c n) := by
  rw [acc2]; exact dif_pos h

/-- The last point. -/
abbrev tLast : Fin cfg0.N := ⟨88, by decide⟩

/-- What the last point stores to the result's staging buffer: the small layers over the two finished accumulators,
    the 76-column remainder and the bias. -/
def OUT (c : Dev nD) : FVec F S1024x1 .f32 :=
  k0_pay6 (k0_pay7 (iblk m c 3 tLast) (iblk m c 4 tLast) (iblk m c 5 tLast) (acc1 m c 88) (iblk m c 6 tLast)
      (acc2 m c 88) (iblk m c 6 tLast) (iblk m c 7 tLast) (iblk m c 8 tLast))
    (iblk m c 9 tLast) (iblk m c 10 tLast) (iblk m c 11 tLast) (iblk m c 12 tLast)

end Cert.KI

end
-- ==== Proof.Runs.lean ====
/-
  The kernel body run symbolically, once for each of the three kinds of grid point.

  Every access of the body is a whole-buffer load or store, so each run ends with the two accumulators and (at the
  last point) the result's staging buffer holding one payload each, a pure function of what the buffers held when
  the point began: the accumulator's old contents plus the product of the point's blocks — at the first point the
  old contents are the zero splat the point itself stores first — and at the last point the small layers applied
  to the accumulators just updated.
-/
import proofs.«102448_j19670950215787_1_alg».proof.Proof.BodyDefs
import Idealize.ShloMosaic.Lib.Pipeline.Value
import Idealize.ShloMosaic.Lib.Pipeline.FrameBody
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The first branch's condition, from the grid coordinate: the point is the first. -/
abbrev condFirst (i : grid0.Coords) : Prop :=
  (Scalar.cmpi .ne (Scalar.extui (Scalar.cmpi .eq (BitVec.ofNat 32 (i 0).val) 0#32)) 0#32) = 1#1
/-- The second branch's condition: the point is the last. -/
abbrev condLast (i : grid0.Coords) : Prop := k0_cond2 i = 1#1

/-! ## Whole-buffer accesses

Every load and store of the body goes through the rectangle at offset zero of the buffer's own extents: a load
reads the contents, and a store, whatever was stored before it, leaves its payload. -/

theorem off2 : (![0, 0] : Fin 2 → ℕ) = fun _ => 0 := funext fun a => by fin_cases a <;> rfl
theorem off1 : (![0] : Fin 1 → ℕ) = fun _ => 0 := funext fun a => by fin_cases a <;> rfl

/-- After a store through the whole-buffer rectangle the buffer reads as the payload, whatever the earlier stores. -/
theorem read_last_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., by
    subst hz; rw [Rect.mem_set_unit]; intro a; exact ⟨Nat.zero_le _, by simpa using (y a).isLt⟩⟩),
    View.canon_cons_unit_zero hz]

/-! ## The body's three runs

The first point zeroes the two accumulators and then adds its block products; a middle point adds; the last point
adds and then stores the network's result computed from the finished accumulators. -/

/-- A middle point: each accumulator ends at itself plus the point's block product; nothing else changes. -/
theorem sound_mid (c : Dev nD) (i : grid0.Coords) (arg1 : Memref sig .tc .vmem S1024x1408 .f32) (harg1 : arg1.IsWhole) (arg2 : Memref sig .tc .vmem S1024x1408 .f32) (harg2 : arg2.IsWhole) (arg3 : Memref sig .tc .vmem S1408x256 .f32) (harg3 : arg3.IsWhole) (arg4 : Memref sig .tc .vmem S1024x76 .f32) (harg4 : arg4.IsWhole) (arg5 : Memref sig .tc .vmem S1024x76 .f32) (harg5 : arg5.IsWhole) (arg6 : Memref sig .tc .vmem S76x256 .f32) (harg6 : arg6.IsWhole) (arg7 : Memref sig .tc .vmem S256 .f32) (harg7 : arg7.IsWhole) (arg8 : Memref sig .tc .vmem S512x32 .f32) (harg8 : arg8.IsWhole) (arg9 : Memref sig .tc .vmem S32 .f32) (harg9 : arg9.IsWhole) (arg10 : Memref sig .tc .vmem S32x32 .f32) (harg10 : arg10.IsWhole) (arg11 : Memref sig .tc .vmem S32 .f32) (harg11 : arg11.IsWhole) (arg12 : Memref sig .tc .vmem S32x1 .f32) (harg12 : arg12.IsWhole) (arg13 : Memref sig .tc .vmem S1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
    (hc1 : ¬condFirst i) (hc2 : ¬condLast i) (x1 x2 : Vec F S1024x1408 .f32) (x3 : Vec F S1408x256 .f32) (x4 x5 : Vec F S1024x76 .f32) (x6 : Vec F S76x256 .f32) (x7 : Vec F S256 .f32) (x8 : Vec F S512x32 .f32) (x9 : Vec F S32 .f32) (x10 : Vec F S32x32 .f32) (x11 : Vec F S32 .f32) (x12 : Vec F S32x1 .f32) (x13 : Vec F S1 .f32) (x14 : Vec F S1024x1 .f32) (s1 s2 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare s1 ∗ owns (c : Thread nD τ) arg16 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (k0_pay4 x1 x3 s1) ∗ owns (c : Thread nD τ) arg16 fullShare (k0_pay5 x2 x3 s2)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  · iexists _; isplitr
    swap; · iexact H16
    ipureintro
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]

/-- The first point: the accumulators, whatever they held, end at the zero splat plus the point's block product. -/
theorem sound_first (c : Dev nD) (i : grid0.Coords) (arg1 : Memref sig .tc .vmem S1024x1408 .f32) (harg1 : arg1.IsWhole) (arg2 : Memref sig .tc .vmem S1024x1408 .f32) (harg2 : arg2.IsWhole) (arg3 : Memref sig .tc .vmem S1408x256 .f32) (harg3 : arg3.IsWhole) (arg4 : Memref sig .tc .vmem S1024x76 .f32) (harg4 : arg4.IsWhole) (arg5 : Memref sig .tc .vmem S1024x76 .f32) (harg5 : arg5.IsWhole) (arg6 : Memref sig .tc .vmem S76x256 .f32) (harg6 : arg6.IsWhole) (arg7 : Memref sig .tc .vmem S256 .f32) (harg7 : arg7.IsWhole) (arg8 : Memref sig .tc .vmem S512x32 .f32) (harg8 : arg8.IsWhole) (arg9 : Memref sig .tc .vmem S32 .f32) (harg9 : arg9.IsWhole) (arg10 : Memref sig .tc .vmem S32x32 .f32) (harg10 : arg10.IsWhole) (arg11 : Memref sig .tc .vmem S32 .f32) (harg11 : arg11.IsWhole) (arg12 : Memref sig .tc .vmem S32x1 .f32) (harg12 : arg12.IsWhole) (arg13 : Memref sig .tc .vmem S1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
    (hc1 : condFirst i) (hc2 : ¬condLast i) (x1 x2 : Vec F S1024x1408 .f32) (x3 : Vec F S1408x256 .f32) (x4 x5 : Vec F S1024x76 .f32) (x6 : Vec F S76x256 .f32) (x7 : Vec F S256 .f32) (x8 : Vec F S512x32 .f32) (x9 : Vec F S32 .f32) (x10 : Vec F S32x32 .f32) (x11 : Vec F S32 .f32) (x12 : Vec F S32x1 .f32) (x13 : Vec F S1 .f32) (x14 : Vec F S1024x1 .f32) (s1 s2 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare s1 ∗ owns (c : Thread nD τ) arg16 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (k0_pay4 x1 x3 k0_pay1) ∗ owns (c : Thread nD τ) arg16 fullShare (k0_pay5 x2 x3 k0_pay2)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    rw [read_last_store _ _ off2, View.readCov_unit_zero _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  · iexists _; isplitr
    swap; · iexact H16
    ipureintro
    sl_unfold_words
    rw [read_last_store _ _ off2, View.readCov_unit_zero _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]

/-- The last point: the accumulators end at themselves plus the point's block product, and the result's staging buffer
    at the small layers over them, the 76-column remainder and the bias. -/
theorem sound_last (c : Dev nD) (i : grid0.Coords) (arg1 : Memref sig .tc .vmem S1024x1408 .f32) (harg1 : arg1.IsWhole) (arg2 : Memref sig .tc .vmem S1024x1408 .f32) (harg2 : arg2.IsWhole) (arg3 : Memref sig .tc .vmem S1408x256 .f32) (harg3 : arg3.IsWhole) (arg4 : Memref sig .tc .vmem S1024x76 .f32) (harg4 : arg4.IsWhole) (arg5 : Memref sig .tc .vmem S1024x76 .f32) (harg5 : arg5.IsWhole) (arg6 : Memref sig .tc .vmem S76x256 .f32) (harg6 : arg6.IsWhole) (arg7 : Memref sig .tc .vmem S256 .f32) (harg7 : arg7.IsWhole) (arg8 : Memref sig .tc .vmem S512x32 .f32) (harg8 : arg8.IsWhole) (arg9 : Memref sig .tc .vmem S32 .f32) (harg9 : arg9.IsWhole) (arg10 : Memref sig .tc .vmem S32x32 .f32) (harg10 : arg10.IsWhole) (arg11 : Memref sig .tc .vmem S32 .f32) (harg11 : arg11.IsWhole) (arg12 : Memref sig .tc .vmem S32x1 .f32) (harg12 : arg12.IsWhole) (arg13 : Memref sig .tc .vmem S1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
    (hc1 : ¬condFirst i) (hc2 : condLast i) (x1 x2 : Vec F S1024x1408 .f32) (x3 : Vec F S1408x256 .f32) (x4 x5 : Vec F S1024x76 .f32) (x6 : Vec F S76x256 .f32) (x7 : Vec F S256 .f32) (x8 : Vec F S512x32 .f32) (x9 : Vec F S32 .f32) (x10 : Vec F S32x32 .f32) (x11 : Vec F S32 .f32) (x12 : Vec F S32x1 .f32) (x13 : Vec F S1 .f32) (x14 : Vec F S1024x1 .f32) (s1 s2 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare s1 ∗ owns (c : Thread nD τ) arg16 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (k0_pay6 (k0_pay7 x4 x5 x6 (k0_pay4 x1 x3 s1) x7 (k0_pay5 x2 x3 s2) x7 x8 x9) x10 x11 x12 x13) ∗ owns (c : Thread nD τ) arg15 fullShare (k0_pay4 x1 x3 s1) ∗ owns (c : Thread nD τ) arg16 fullShare (k0_pay5 x2 x3 s2)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton, k0_part1_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    sl_unfold_words
    rw [read_last_store _ _ off2, View.readCov_unit_zero _ off2, View.readCov_unit_zero _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  isplitl [H15]
  · iexists _; isplitr
    swap; · iexact H15
    ipureintro
    sl_unfold_words
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  · iexists _; isplitr
    swap; · iexact H16
    ipureintro
    sl_unfold_words
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]

end Cert.KI
end
-- ==== Proof.Uncut.lean ====
/-
  At every one of the 89 grid points the blocks of the three moving windows lie inside their arrays
  (89 · 1408 = 125312 ≤ 125388): no transfer is cut, every position of a staging buffer is one the fetch fills, and
  what the buffer holds after the fetch does not depend on what it held before.
-/
import proofs.«102448_j19670950215787_1_alg».proof.Proof.Gen.KernelIdeal.Points

noncomputable section

namespace Cert.KI

open Cert.KernelIdeal Cert.KernelIdeal.Gen
open Idealize.ShloMosaic Idealize.ShloMosaic.TcCoe Idealize.SL.Sem

/-- No block of the first input is cut. -/
theorem uncut0 : ∀ t : Fin cfg0.N, ∀ a, win0_0.clip (grid0.coords t) a = none :=
  (by decide +kernel : ∀ t : Fin grid0.N, ∀ a, win0_0.clip (grid0.coords t) a = none)
/-- No block of the second input is cut. -/
theorem uncut1 : ∀ t : Fin cfg0.N, ∀ a, win0_1.clip (grid0.coords t) a = none :=
  (by decide +kernel : ∀ t : Fin grid0.N, ∀ a, win0_1.clip (grid0.coords t) a = none)
/-- No block of the input matrix is cut. -/
theorem uncut2 : ∀ t : Fin cfg0.N, ∀ a, win0_2.clip (grid0.coords t) a = none :=
  (by decide +kernel : ∀ t : Fin grid0.N, ∀ a, win0_2.clip (grid0.coords t) a = none)

/-- Every position of the first input's staging buffer is filled by the fetch. -/
theorem moved0 (t : Fin cfg0.N) (j : win0_0.block.Idx) : win0_0.moved (grid0.coords t) j = true :=
  (win0_0.moved_iff _ j).mpr fun a => by
    show (j a).val < (win0_0.clip (grid0.coords t) a).extent (win0_0.size a)
    rw [uncut0 t a]; exact (j a).isLt
theorem moved1 (t : Fin cfg0.N) (j : win0_1.block.Idx) : win0_1.moved (grid0.coords t) j = true :=
  (win0_1.moved_iff _ j).mpr fun a => by
    show (j a).val < (win0_1.clip (grid0.coords t) a).extent (win0_1.size a)
    rw [uncut1 t a]; exact (j a).isLt
theorem moved2 (t : Fin cfg0.N) (j : win0_2.block.Idx) : win0_2.moved (grid0.coords t) j = true :=
  (win0_2.moved_iff _ j).mpr fun a => by
    show (j a).val < (win0_2.clip (grid0.coords t) a).extent (win0_2.size a)
    rw [uncut2 t a]; exact (j a).isLt

/-- So the buffer after the fetch is the same whatever it held before. -/
theorem fill0 {α : Type} (t : Fin cfg0.N) (d d' : win0_0.block.Idx → α) (g : (win0_0.xblock (grid0.coords t)).Idx → α) :
    win0_0.fill (grid0.coords t) d g = win0_0.fill (grid0.coords t) d' g := by
  funext j; unfold Pipeline.Window.fill; rw [dif_pos (moved0 t j), dif_pos (moved0 t j)]
theorem fill1 {α : Type} (t : Fin cfg0.N) (d d' : win0_1.block.Idx → α) (g : (win0_1.xblock (grid0.coords t)).Idx → α) :
    win0_1.fill (grid0.coords t) d g = win0_1.fill (grid0.coords t) d' g := by
  funext j; unfold Pipeline.Window.fill; rw [dif_pos (moved1 t j), dif_pos (moved1 t j)]
theorem fill2 {α : Type} (t : Fin cfg0.N) (d d' : win0_2.block.Idx → α) (g : (win0_2.xblock (grid0.coords t)).Idx → α) :
    win0_2.fill (grid0.coords t) d g = win0_2.fill (grid0.coords t) d' g := by
  funext j; unfold Pipeline.Window.fill; rw [dif_pos (moved2 t j), dif_pos (moved2 t j)]

end Cert.KI

end
-- ==== Proof.Body.lean ====
/-
  The pipeline's proof data, the body obligation at every grid point, the run and the frame.

  Between points the two scratch accumulators hold the sums so far (`acc1`, `acc2`); every input window's staging
  buffer holds its block; the result's staging buffer is untouched until the last point, which stores the network's
  result into it, and that point alone writes it back.
-/
import proofs.«102448_j19670950215787_1_alg».proof.Proof.Runs
import proofs.«102448_j19670950215787_1_alg».proof.Proof.Uncut
import Idealize.ShloMosaic.Lib.Pipeline.Value

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## Which point is which -/

/-- The first branch is taken at point 0 only. -/
theorem first_iff : ∀ t : Fin cfg0.N, condFirst (grid0.coords t) ↔ t.val = 0 :=
  (by decide +kernel : ∀ t : Fin grid0.N, condFirst (grid0.coords t) ↔ t.val = 0)
/-- The second branch is taken at point 88 only. -/
theorem last_iff : ∀ t : Fin cfg0.N, condLast (grid0.coords t) ↔ t.val = 88 :=
  (by decide +kernel : ∀ t : Fin grid0.N, condLast (grid0.coords t) ↔ t.val = 88)
/-- Away from the last point the body stores nothing into the result's buffer, and the pipeline does not write it back. -/
theorem idle13 : ∀ t : Fin cfg0.N, ¬condLast (grid0.coords t) → cfg0.idle 13 (grid0.coords t) = true := by decide +kernel
theorem noFlush13 : ∀ t : Fin cfg0.N, ¬condLast (grid0.coords t) → (cfg0.win 13).flush t = false := by decide +kernel
/-- At the last point it does. -/
theorem live13 : ∀ t : Fin cfg0.N, condLast (grid0.coords t) → cfg0.idle 13 (grid0.coords t) = false := by decide +kernel

/-! ## The invariant between points -/

/-- The two scratch accumulators, as memrefs. -/
abbrev scM0 : Memref sig .tc .vmem S1024x256 .f32 := Memref.whole cc0_scratch0
abbrev scM1 : Memref sig .tc .vmem S1024x256 .f32 := Memref.whole cc0_scratch1

/-- Before the first point the accumulators hold anything. -/
theorem PhiA_eq (c : Dev nD) :
    (ΦA spec0 c : sProp 𝕄)
      = iprop(((∃ d, owns (c : Thread nD τ) scM0 fullShare d) ∗ (∃ d, owns (c : Thread nD τ) scM1 fullShare d)) ∗ (∃ r, prngReg c r)) := by
  unfold ΦA; rw [scopedRest0_eq]; simp only [scM0, scM1, owns_whole]; rfl

/-- Before point `n`: anything before the first; afterwards the sums over the points before. -/
def PhiAt (c : Dev nD) : ℕ → sProp 𝕄
  | 0 => ΦA spec0 c
  | n + 1 => iprop((owns (c : Thread nD τ) scM0 fullShare (acc1 m c n) ∗ owns (c : Thread nD τ) scM1 fullShare (acc2 m c n)) ∗ (∃ r, prngReg c r))

/-! ## The proof data -/

/-- The arrays as the region finds them; after the body at point `t` every input's buffer at its block and the result's
    at the network's result (consulted at the last point only); the accumulators' sums between points; nothing owed. -/
def dats (_ : Fin 1) (c : Dev nD) : Dat τ (Elt F) Unit ℕ (UR sig nD τ) ℕ cfg0 c where
  A w := V m c (Pipeline.arrRef spec0 w)
  after w t := match w with
    | ⟨0, _⟩ => blkX1 m c t
    | ⟨1, _⟩ => blkX2 m c t
    | ⟨2, _⟩ => blkW m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => OUT m c
  Φ t := PhiAt m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blkX1 m c t := by dsimp only [dats]
theorem after1 (c : Dev nD) (t : Fin cfg0.N) : (dats m 0 c).after 1 t = blkX2 m c t := by dsimp only [dats]
theorem after2 (c : Dev nD) (t : Fin cfg0.N) : (dats m 0 c).after 2 t = blkW m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = OUT m c := by dsimp only [dats]

/-- What each input's buffer holds when the body runs: the three moving windows are fetched at every point, each fetch
    filling the whole buffer; the others hold their one block throughout. -/
theorem before0 (c : Dev nD) (t : Fin cfg0.N) (d) : (dats m 0 c).before 0 t d = blkX1 m c t := by
  unfold Dat.before; rw [if_pos (fetch0_0 t)]
  exact fill0 t d _ (iblk m c 0 t)
theorem before1 (c : Dev nD) (t : Fin cfg0.N) (d) : (dats m 0 c).before 1 t d = blkX2 m c t := by
  unfold Dat.before; rw [if_pos (fetch0_1 t)]
  exact fill1 t d _ (iblk m c 1 t)
theorem before2 (c : Dev nD) (t : Fin cfg0.N) (d) : (dats m 0 c).before 2 t d = blkW m c t := by
  unfold Dat.before; rw [if_pos (fetch0_2 t)]
  exact fill2 t d _ (iblk m c 2 t)
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

theorem Phi_castSucc (c : Dev nD) (t : Fin cfg0.N) : (dats m 0 c).Φ t.castSucc = PhiAt m c t.val := by
  dsimp only [dats]; simp only [Fin.coe_castSucc]
theorem Phi_succ (c : Dev nD) (t : Fin cfg0.N) : (dats m 0 c).Φ t.succ = PhiAt m c (t.val + 1) := by
  dsimp only [dats]; simp only [Fin.val_succ]

/-- The network's result, with the last point's update of the accumulators spelt out. -/
theorem OUT_last (c : Dev nD) :
    OUT m c = k0_pay6 (k0_pay7 (iblk m c 3 tLast) (iblk m c 4 tLast) (iblk m c 5 tLast)
        (k0_pay4 (blkX1 m c tLast) (blkW m c tLast) (acc1 m c 87)) (iblk m c 6 tLast)
        (k0_pay5 (blkX2 m c tLast) (blkW m c tLast) (acc2 m c 87)) (iblk m c 6 tLast) (iblk m c 7 tLast) (iblk m c 8 tLast))
      (iblk m c 9 tLast) (iblk m c 10 tLast) (iblk m c 11 tLast) (iblk m c 12 tLast) := by
  unfold OUT
  rw [show acc1 m c 88 = _ from acc1_succ m c 87 (by decide), show acc2 m c 88 = _ from acc2_succ m c 87 (by decide)]

/-- The same at the last point written as the successor of the point before. -/
theorem OUT_at (c : Dev nD) (n : ℕ) (hn : n + 1 < cfg0.N) (h : n + 1 = 88) :
    OUT m c = k0_pay6 (k0_pay7 (iblk m c 3 ⟨n + 1, hn⟩) (iblk m c 4 ⟨n + 1, hn⟩) (iblk m c 5 ⟨n + 1, hn⟩)
        (k0_pay4 (blkX1 m c ⟨n + 1, hn⟩) (blkW m c ⟨n + 1, hn⟩) (acc1 m c n)) (iblk m c 6 ⟨n + 1, hn⟩)
        (k0_pay5 (blkX2 m c ⟨n + 1, hn⟩) (blkW m c ⟨n + 1, hn⟩) (acc2 m c n)) (iblk m c 6 ⟨n + 1, hn⟩) (iblk m c 7 ⟨n + 1, hn⟩) (iblk m c 8 ⟨n + 1, hn⟩))
      (iblk m c 9 ⟨n + 1, hn⟩) (iblk m c 10 ⟨n + 1, hn⟩) (iblk m c 11 ⟨n + 1, hn⟩) (iblk m c 12 ⟨n + 1, hn⟩) := by
  obtain rfl : n = 87 := by omega
  exact OUT_last m c

/-- After the first point the invariant names the accumulators' contents. -/
theorem PhiAt_pos (c : Dev nD) (n : ℕ) (h : n ≠ 0) :
    PhiAt m c n = iprop((owns (c : Thread nD τ) scM0 fullShare (acc1 m c (n - 1)) ∗ owns (c : Thread nD τ) scM1 fullShare (acc2 m c (n - 1))) ∗ (∃ r, prngReg c r)) := by
  cases n with
  | zero => exact absurd rfl h
  | succ n => rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- At every point the run of that point's kind applies: the invariant hands it the accumulators at the sums so far
    (at anything, at the first point) and takes them back one block product further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from rfl, after0]
  rw [show (dats m 0 c).leavesExact 1 t = owns (c : Thread nD τ) (st0_1 t) fullShare ((dats m 0 c).after 1 t) from rfl, after1]
  rw [show (dats m 0 c).leavesExact 2 t = owns (c : Thread nD τ) (st0_2 t) fullShare ((dats m 0 c).after 2 t) from rfl, after2]
  rw [show (dats m 0 c).leavesExact 3 t = owns (c : Thread nD τ) (st0_3 t) fullShare ((dats m 0 c).after 3 t) from rfl, after3]
  rw [show (dats m 0 c).leavesExact 4 t = owns (c : Thread nD τ) (st0_4 t) fullShare ((dats m 0 c).after 4 t) from rfl, after4]
  rw [show (dats m 0 c).leavesExact 5 t = owns (c : Thread nD τ) (st0_5 t) fullShare ((dats m 0 c).after 5 t) from rfl, after5]
  rw [show (dats m 0 c).leavesExact 6 t = owns (c : Thread nD τ) (st0_6 t) fullShare ((dats m 0 c).after 6 t) from rfl, after6]
  rw [show (dats m 0 c).leavesExact 7 t = owns (c : Thread nD τ) (st0_7 t) fullShare ((dats m 0 c).after 7 t) from rfl, after7]
  rw [show (dats m 0 c).leavesExact 8 t = owns (c : Thread nD τ) (st0_8 t) fullShare ((dats m 0 c).after 8 t) from rfl, after8]
  rw [show (dats m 0 c).leavesExact 9 t = owns (c : Thread nD τ) (st0_9 t) fullShare ((dats m 0 c).after 9 t) from rfl, after9]
  rw [show (dats m 0 c).leavesExact 10 t = owns (c : Thread nD τ) (st0_10 t) fullShare ((dats m 0 c).after 10 t) from rfl, after10]
  rw [show (dats m 0 c).leavesExact 11 t = owns (c : Thread nD τ) (st0_11 t) fullShare ((dats m 0 c).after 11 t) from rfl, after11]
  rw [show (dats m 0 c).leavesExact 12 t = owns (c : Thread nD τ) (st0_12 t) fullShare ((dats m 0 c).after 12 t) from rfl, after12]
  obtain ⟨n, hn⟩ := t
  cases n with
  | zero =>
    have hc1 : condFirst (grid0.coords ⟨0, hn⟩) := (first_iff _).mpr rfl
    have hc2 : ¬condLast (grid0.coords ⟨0, hn⟩) := fun h => absurd ((last_iff _).mp h) (show ¬ (0 : ℕ) = 88 by decide)
    rw [Dat.leavesExact_idle (dats m 0 c) 13 _ (idle13 _ hc2) (noFlush13 _ hc2)]
    rw [show PhiAt m c ((⟨0, hn⟩ : Fin cfg0.N).val) = ΦA spec0 c from rfl, PhiA_eq]
    rw [show PhiAt m c ((⟨0, hn⟩ : Fin cfg0.N).val + 1) = iprop((owns (c : Thread nD τ) scM0 fullShare (acc1 m c 0) ∗ owns (c : Thread nD τ) scM1 fullShare (acc2 m c 0)) ∗ (∃ r, prngReg c r)) from rfl]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_first c (grid0.coords ⟨0, hn⟩) _ _ _ _ _ _ _ _ _ _ _ _ _ _ _ _ _ _ _ _ _ _ _ _ _ _ _ _ _ _ _ _ hc1 hc2 (blkX1 m c ⟨0, hn⟩) (blkX2 m c ⟨0, hn⟩) (blkW m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) _ e0 e1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitr [Hg]
      · isplitl [HS0]; · iexact HS0
        iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact H13
  | succ n =>
    have hc1 : ¬condFirst (grid0.coords ⟨n + 1, hn⟩) := fun h => absurd ((first_iff _).mp h) (Nat.succ_ne_zero n)
    rw [show PhiAt m c ((⟨n + 1, hn⟩ : Fin cfg0.N).val) = iprop((owns (c : Thread nD τ) scM0 fullShare (acc1 m c n) ∗ owns (c : Thread nD τ) scM1 fullShare (acc2 m c n)) ∗ (∃ r, prngReg c r)) from rfl]
    rw [show PhiAt m c ((⟨n + 1, hn⟩ : Fin cfg0.N).val + 1) = iprop((owns (c : Thread nD τ) scM0 fullShare (acc1 m c (n + 1)) ∗ owns (c : Thread nD τ) scM1 fullShare (acc2 m c (n + 1))) ∗ (∃ r, prngReg c r)) from rfl]
    rw [acc1_succ m c n hn, acc2_succ m c n hn]
    by_cases hL : n + 1 = 88
    · have hc2 : condLast (grid0.coords ⟨n + 1, hn⟩) := (last_iff _).mpr hL
      rw [show (dats m 0 c).leavesExact 13 ⟨n + 1, hn⟩ = owns (c : Thread nD τ) (st0_13 ⟨n + 1, hn⟩) fullShare ((dats m 0 c).after 13 ⟨n + 1, hn⟩) from by
        unfold Dat.leavesExact; rw [live13 _ hc2], after13, OUT_at m c n hn hL]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (sound_last c (grid0.coords ⟨n + 1, hn⟩) _ _ _ _ _ _ _ _ _ _ _ _ _ _ _ _ _ _ _ _ _ _ _ _ _ _ _ _ _ _ _ _ hc1 hc2 (blkX1 m c ⟨n + 1, hn⟩) (blkX2 m c ⟨n + 1, hn⟩) (blkW m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) _ (acc1 m c n) (acc2 m c n) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      isplitl [HS0 HS1 Hg]
      · isplitr [Hg]
        · isplitl [HS0]; · iexact HS0
          iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc2 : ¬condLast (grid0.coords ⟨n + 1, hn⟩) := fun h => hL ((last_iff _).mp h)
      rw [Dat.leavesExact_idle (dats m 0 c) 13 _ (idle13 _ hc2) (noFlush13 _ hc2)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (sound_mid c (grid0.coords ⟨n + 1, hn⟩) _ _ _ _ _ _ _ _ _ _ _ _ _ _ _ _ _ _ _ _ _ _ _ _ _ _ _ _ _ _ _ _ hc1 hc2 (blkX1 m c ⟨n + 1, hn⟩) (blkX2 m c ⟨n + 1, hn⟩) (blkW m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) _ (acc1 m c n) (acc2 m c n) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      isplitl [HS0 HS1 Hg]
      · isplitr [Hg]
        · isplitl [HS0]; · iexact HS0
          iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KI

end
-- ==== Proof.Run.lean ====
/-
  The launch: the invariant's two ends, the run of @main, and the result's array after it.
-/
import proofs.«102448_j19670950215787_1_alg».proof.Proof.Body
import Idealize.ShloMosaic.Lib.Pipeline.Value

set_option maxRecDepth 16384

noncomputable section

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : ΦA spec0 c ⊢ (dats m 0 c).Φ 0 := by
  rw [show (dats m 0 c).Φ 0 = ΦA spec0 c from rfl]

/-- After the last point the invariant gives the accumulators back at contents nobody names. -/
theorem hout (c : Dev nD) : (dats m 0 c).Φ (Fin.last cfg0.N) ⊢ ΦA spec0 c := by
  rw [show (dats m 0 c).Φ (Fin.last cfg0.N) = PhiAt m c (Fin.last cfg0.N).val from rfl,
    PhiAt_pos m c _ (by rw [Fin.val_last]; have : cfg0.N = 89 := N_0; omega), PhiA_eq]
  iintro ⟨⟨HS0, HS1⟩, Hg⟩
  isplitr [Hg]
  · isplitl [HS0]; · iexists _; iexact HS0
    iexists _; iexact HS1
  · iexact Hg

/-! ## The run, and the result's array after it -/

set_option backward.isDefEq.respectTransparency.types false in
/-- From any memory with zero counters every weakly fair execution of @main terminates, every array of the pipeline
    ending at what the library computes from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's one block is the whole array and only the last point writes it back: the array ends at what that
    point stored. -/
theorem finalA (c : Dev nD) : (dats m 0 c).arrAt 13 cfg0.N = OUT m c := by
  rw [show cfg0.N = tLast.val + 1 from rfl, (dats m 0 c).arrAt_succ 13 tLast,
    if_pos (show (cfg0.win 13).flush tLast = true from (flush0_13 tLast).mpr rfl)]
  have hz : (fun a => (win0_13.index tLast) a * main_v3.ty.shape.size a) = fun _ => 0 := funext fun a => by fin_cases a <;> decide
  refine (Memref.write_access_unit_zero_univ (Elt F) main_v3 hz _ _ _).trans ?_
  exact after13 m c tLast

end Cert.KI

end
-- ==== Proof.BodyDefsB.lean ====
/-
  The values the kernel's run carries, as pure functions of the argument arrays as the region finds them.

  The grid has 89 points. Point `t` is handed columns 1408·t … 1408·t + 1407 of each of the two inputs and rows
  1408·t … 1408·t + 1407 of the input matrix; the two scratch accumulators are zeroed at point 0 and each point
  adds its block product to them; the last point adds the product of the remaining 76 columns, the bias, and runs
  the three small layers on the result.
-/
import proofs.«102448_j19670950215787_1_alg».proof.Proof.Gen.Kernel.Frame
import proofs.«102448_j19670950215787_1_alg».proof.Proof.Gen.Kernel.Skeleton

noncomputable section

namespace Cert.KB

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The three moving windows' staging contents at point `t`: the block of the array the fetch lands, on the
    whole buffer (at every point of this grid the block lies inside its array, so the fetch fills all of it;
    the filler is never read). -/
def blkX1 (c : Dev nD) (t : Fin cfg0.N) : Vec F S1024x1408 .f32 :=
  win0_0.fill (grid0.coords t) (fun _ => Scalar.ofBits .f32 0#32) (iblk m c 0 t)
def blkX2 (c : Dev nD) (t : Fin cfg0.N) : Vec F S1024x1408 .f32 :=
  win0_1.fill (grid0.coords t) (fun _ => Scalar.ofBits .f32 0#32) (iblk m c 1 t)
def blkW (c : Dev nD) (t : Fin cfg0.N) : Vec F S1408x256 .f32 :=
  win0_2.fill (grid0.coords t) (fun _ => Scalar.ofBits .f32 0#32) (iblk m c 2 t)

/-- The first accumulator after point `n`: zero plus the block products of points 0 … n. -/
def acc1 (c : Dev nD) : ℕ → FVec F S1024x256 .f32
  | 0 => k0_pay4 (blkX1 m c ⟨0, by decide⟩) (blkW m c ⟨0, by decide⟩) k0_pay1
  | n + 1 => if h : n + 1 < cfg0.N then k0_pay4 (blkX1 m c ⟨n + 1, h⟩) (blkW m c ⟨n + 1, h⟩) (acc1 c n) else acc1 c n

/-- The second accumulator after point `n`. -/
def acc2 (c : Dev nD) : ℕ → FVec F S1024x256 .f32
  | 0 => k0_pay5 (blkX2 m c ⟨0, by decide⟩) (blkW m c ⟨0, by decide⟩) k0_pay2
  | n + 1 => if h : n + 1 < cfg0.N then k0_pay5 (blkX2 m c ⟨n + 1, h⟩) (blkW m c ⟨n + 1, h⟩) (acc2 c n) else acc2 c n

theorem acc1_succ (c : Dev nD) (n : ℕ) (h : n + 1 < cfg0.N) :
    acc1 m c (n + 1) = k0_pay4 (blkX1 m c ⟨n + 1, h⟩) (blkW m c ⟨n + 1, h⟩) (acc1 m c n) := by
  rw [acc1]; exact dif_pos h

theorem acc2_succ (c : Dev nD) (n : ℕ) (h : n + 1 < cfg0.N) :
    acc2 m c (n + 1) = k0_pay5 (blkX2 m c ⟨n + 1, h⟩) (blkW m c ⟨n + 1, h⟩) (acc2 m c n) := by
  rw [acc2]; exact dif_pos h

/-- The last point. -/
abbrev tLast : Fin cfg0.N := ⟨88, by decide⟩

/-- What the last point stores to the result's staging buffer: the small layers over the two finished accumulators,
    the 76-column remainder and the bias. -/
def OUT (c : Dev nD) : FVec F S1024x1 .f32 :=
  k0_pay6 (k0_pay7 (iblk m c 3 tLast) (iblk m c 4 tLast) (iblk m c 5 tLast) (acc1 m c 88) (iblk m c 6 tLast)
      (acc2 m c 88) (iblk m c 6 tLast) (iblk m c 7 tLast) (iblk m c 8 tLast))
    (iblk m c 9 tLast) (iblk m c 10 tLast) (iblk m c 11 tLast) (iblk m c 12 tLast)

end Cert.KB

end
-- ==== Proof.RunsB.lean ====
/-
  The kernel body run symbolically, once for each of the three kinds of grid point.

  Every access of the body is a whole-buffer load or store, so each run ends with the two accumulators and (at the
  last point) the result's staging buffer holding one payload each, a pure function of what the buffers held when
  the point began: the accumulator's old contents plus the product of the point's blocks — at the first point the
  old contents are the zero splat the point itself stores first — and at the last point the small layers applied
  to the accumulators just updated.
-/
import proofs.«102448_j19670950215787_1_alg».proof.Proof.BodyDefsB
import Idealize.ShloMosaic.Lib.Pipeline.Value
import Idealize.ShloMosaic.Lib.Pipeline.FrameBody
import Idealize.ShloMosaic.Lib.Tactic

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

/-- The first branch's condition, from the grid coordinate: the point is the first. -/
abbrev condFirst (i : grid0.Coords) : Prop :=
  (Scalar.cmpi .ne (Scalar.extui (Scalar.cmpi .eq (BitVec.ofNat 32 (i 0).val) 0#32)) 0#32) = 1#1
/-- The second branch's condition: the point is the last. -/
abbrev condLast (i : grid0.Coords) : Prop := k0_cond2 i = 1#1

/-! ## Whole-buffer accesses

Every load and store of the body goes through the rectangle at offset zero of the buffer's own extents: a load
reads the contents, and a store, whatever was stored before it, leaves its payload. -/

theorem off2 : (![0, 0] : Fin 2 → ℕ) = fun _ => 0 := funext fun a => by fin_cases a <;> rfl
theorem off1 : (![0] : Fin 1 → ℕ) = fun _ => 0 := funext fun a => by fin_cases a <;> rfl

/-- After a store through the whole-buffer rectangle the buffer reads as the payload, whatever the earlier stores. -/
theorem read_last_store {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., by
    subst hz; rw [Rect.mem_set_unit]; intro a; exact ⟨Nat.zero_le _, by simpa using (y a).isLt⟩⟩),
    View.canon_cons_unit_zero hz]

/-! ## The body's three runs

The first point zeroes the two accumulators and then adds its block products; a middle point adds; the last point
adds and then stores the network's result computed from the finished accumulators. -/

/-- A middle point: each accumulator ends at itself plus the point's block product; nothing else changes. -/
theorem sound_mid (c : Dev nD) (i : grid0.Coords) (arg1 : Memref sig .tc .vmem S1024x1408 .f32) (harg1 : arg1.IsWhole) (arg2 : Memref sig .tc .vmem S1024x1408 .f32) (harg2 : arg2.IsWhole) (arg3 : Memref sig .tc .vmem S1408x256 .f32) (harg3 : arg3.IsWhole) (arg4 : Memref sig .tc .vmem S1024x76 .f32) (harg4 : arg4.IsWhole) (arg5 : Memref sig .tc .vmem S1024x76 .f32) (harg5 : arg5.IsWhole) (arg6 : Memref sig .tc .vmem S76x256 .f32) (harg6 : arg6.IsWhole) (arg7 : Memref sig .tc .vmem S256 .f32) (harg7 : arg7.IsWhole) (arg8 : Memref sig .tc .vmem S512x32 .f32) (harg8 : arg8.IsWhole) (arg9 : Memref sig .tc .vmem S32 .f32) (harg9 : arg9.IsWhole) (arg10 : Memref sig .tc .vmem S32x32 .f32) (harg10 : arg10.IsWhole) (arg11 : Memref sig .tc .vmem S32 .f32) (harg11 : arg11.IsWhole) (arg12 : Memref sig .tc .vmem S32x1 .f32) (harg12 : arg12.IsWhole) (arg13 : Memref sig .tc .vmem S1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
    (hc1 : ¬condFirst i) (hc2 : ¬condLast i) (x1 x2 : Vec F S1024x1408 .f32) (x3 : Vec F S1408x256 .f32) (x4 x5 : Vec F S1024x76 .f32) (x6 : Vec F S76x256 .f32) (x7 : Vec F S256 .f32) (x8 : Vec F S512x32 .f32) (x9 : Vec F S32 .f32) (x10 : Vec F S32x32 .f32) (x11 : Vec F S32 .f32) (x12 : Vec F S32x1 .f32) (x13 : Vec F S1 .f32) (x14 : Vec F S1024x1 .f32) (s1 s2 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare s1 ∗ owns (c : Thread nD τ) arg16 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (k0_pay4 x1 x3 s1) ∗ owns (c : Thread nD τ) arg16 fullShare (k0_pay5 x2 x3 s2)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  · iexists _; isplitr
    swap; · iexact H16
    ipureintro
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]

/-- The first point: the accumulators, whatever they held, end at the zero splat plus the point's block product. -/
theorem sound_first (c : Dev nD) (i : grid0.Coords) (arg1 : Memref sig .tc .vmem S1024x1408 .f32) (harg1 : arg1.IsWhole) (arg2 : Memref sig .tc .vmem S1024x1408 .f32) (harg2 : arg2.IsWhole) (arg3 : Memref sig .tc .vmem S1408x256 .f32) (harg3 : arg3.IsWhole) (arg4 : Memref sig .tc .vmem S1024x76 .f32) (harg4 : arg4.IsWhole) (arg5 : Memref sig .tc .vmem S1024x76 .f32) (harg5 : arg5.IsWhole) (arg6 : Memref sig .tc .vmem S76x256 .f32) (harg6 : arg6.IsWhole) (arg7 : Memref sig .tc .vmem S256 .f32) (harg7 : arg7.IsWhole) (arg8 : Memref sig .tc .vmem S512x32 .f32) (harg8 : arg8.IsWhole) (arg9 : Memref sig .tc .vmem S32 .f32) (harg9 : arg9.IsWhole) (arg10 : Memref sig .tc .vmem S32x32 .f32) (harg10 : arg10.IsWhole) (arg11 : Memref sig .tc .vmem S32 .f32) (harg11 : arg11.IsWhole) (arg12 : Memref sig .tc .vmem S32x1 .f32) (harg12 : arg12.IsWhole) (arg13 : Memref sig .tc .vmem S1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
    (hc1 : condFirst i) (hc2 : ¬condLast i) (x1 x2 : Vec F S1024x1408 .f32) (x3 : Vec F S1408x256 .f32) (x4 x5 : Vec F S1024x76 .f32) (x6 : Vec F S76x256 .f32) (x7 : Vec F S256 .f32) (x8 : Vec F S512x32 .f32) (x9 : Vec F S32 .f32) (x10 : Vec F S32x32 .f32) (x11 : Vec F S32 .f32) (x12 : Vec F S32x1 .f32) (x13 : Vec F S1 .f32) (x14 : Vec F S1024x1 .f32) (s1 s2 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare s1 ∗ owns (c : Thread nD τ) arg16 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (k0_pay4 x1 x3 k0_pay1) ∗ owns (c : Thread nD τ) arg16 fullShare (k0_pay5 x2 x3 k0_pay2)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    sl_unfold_words
    rw [read_last_store _ _ off2, View.readCov_unit_zero _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  · iexists _; isplitr
    swap; · iexact H16
    ipureintro
    sl_unfold_words
    rw [read_last_store _ _ off2, View.readCov_unit_zero _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]

/-- The last point: the accumulators end at themselves plus the point's block product, and the result's staging buffer
    at the small layers over them, the 76-column remainder and the bias. -/
theorem sound_last (c : Dev nD) (i : grid0.Coords) (arg1 : Memref sig .tc .vmem S1024x1408 .f32) (harg1 : arg1.IsWhole) (arg2 : Memref sig .tc .vmem S1024x1408 .f32) (harg2 : arg2.IsWhole) (arg3 : Memref sig .tc .vmem S1408x256 .f32) (harg3 : arg3.IsWhole) (arg4 : Memref sig .tc .vmem S1024x76 .f32) (harg4 : arg4.IsWhole) (arg5 : Memref sig .tc .vmem S1024x76 .f32) (harg5 : arg5.IsWhole) (arg6 : Memref sig .tc .vmem S76x256 .f32) (harg6 : arg6.IsWhole) (arg7 : Memref sig .tc .vmem S256 .f32) (harg7 : arg7.IsWhole) (arg8 : Memref sig .tc .vmem S512x32 .f32) (harg8 : arg8.IsWhole) (arg9 : Memref sig .tc .vmem S32 .f32) (harg9 : arg9.IsWhole) (arg10 : Memref sig .tc .vmem S32x32 .f32) (harg10 : arg10.IsWhole) (arg11 : Memref sig .tc .vmem S32 .f32) (harg11 : arg11.IsWhole) (arg12 : Memref sig .tc .vmem S32x1 .f32) (harg12 : arg12.IsWhole) (arg13 : Memref sig .tc .vmem S1 .f32) (harg13 : arg13.IsWhole) (arg14 : Memref sig .tc .vmem S1024x1 .f32) (harg14 : arg14.IsWhole) (arg15 : Memref sig .tc .vmem S1024x256 .f32) (harg15 : arg15.IsWhole) (arg16 : Memref sig .tc .vmem S1024x256 .f32) (harg16 : arg16.IsWhole)
    (hc1 : ¬condFirst i) (hc2 : condLast i) (x1 x2 : Vec F S1024x1408 .f32) (x3 : Vec F S1408x256 .f32) (x4 x5 : Vec F S1024x76 .f32) (x6 : Vec F S76x256 .f32) (x7 : Vec F S256 .f32) (x8 : Vec F S512x32 .f32) (x9 : Vec F S32 .f32) (x10 : Vec F S32x32 .f32) (x11 : Vec F S32 .f32) (x12 : Vec F S32x1 .f32) (x13 : Vec F S1 .f32) (x14 : Vec F S1024x1 .f32) (s1 s2 : Vec F S1024x256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare s1 ∗ owns (c : Thread nD τ) arg16 fullShare s2
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (k0_pay6 (k0_pay7 x4 x5 x6 (k0_pay4 x1 x3 s1) x7 (k0_pay5 x2 x3 s2) x7 x8 x9) x10 x11 x12 x13) ∗ owns (c : Thread nD τ) arg15 fullShare (k0_pay4 x1 x3 s1) ∗ owns (c : Thread nD τ) arg16 fullShare (k0_pay5 x2 x3 s2)) -∗ K ⟨⟩))
      ⊢ wp frame (wpE (defs₀ (F := F)) Variants.none c none) Set.univ (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__kernel_eq_skeleton, k0_part1_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    sl_unfold_words
    rw [read_last_store _ _ off2, View.readCov_unit_zero _ off2, View.readCov_unit_zero _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  isplitl [H15]
  · iexists _; isplitr
    swap; · iexact H15
    ipureintro
    sl_unfold_words
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]
  · iexists _; isplitr
    swap; · iexact H16
    ipureintro
    sl_unfold_words
    rw [read_last_store _ _ off2]
    simp only [View.readAt_eq_ld, View.ld_unit_zero (S := S1024x1408) off2, View.ld_unit_zero (S := S1408x256) off2, View.ld_unit_zero (S := S1024x256) off2, View.ld_unit_zero (S := S1024x76) off2, View.ld_unit_zero (S := S76x256) off2, View.ld_unit_zero (S := S512x32) off2, View.ld_unit_zero (S := S32x32) off2, View.ld_unit_zero (S := S32x1) off2, View.ld_unit_zero (S := S1024x1) off2, View.ld_unit_zero (S := S256) off1, View.ld_unit_zero (S := S32) off1, View.ld_unit_zero (S := S1) off1]

end Cert.KB
end
-- ==== Proof.UncutB.lean ====
/-
  At every one of the 89 grid points the blocks of the three moving windows lie inside their arrays
  (89 · 1408 = 125312 ≤ 125388): no transfer is cut, every position of a staging buffer is one the fetch fills, and
  what the buffer holds after the fetch does not depend on what it held before.
-/
import proofs.«102448_j19670950215787_1_alg».proof.Proof.Gen.Kernel.Points

noncomputable section

namespace Cert.KB

open Cert.Kernel Cert.Kernel.Gen
open Idealize.ShloMosaic Idealize.ShloMosaic.TcCoe Idealize.SL.Sem

/-- No block of the first input is cut. -/
theorem uncut0 : ∀ t : Fin cfg0.N, ∀ a, win0_0.clip (grid0.coords t) a = none :=
  (by decide +kernel : ∀ t : Fin grid0.N, ∀ a, win0_0.clip (grid0.coords t) a = none)
/-- No block of the second input is cut. -/
theorem uncut1 : ∀ t : Fin cfg0.N, ∀ a, win0_1.clip (grid0.coords t) a = none :=
  (by decide +kernel : ∀ t : Fin grid0.N, ∀ a, win0_1.clip (grid0.coords t) a = none)
/-- No block of the input matrix is cut. -/
theorem uncut2 : ∀ t : Fin cfg0.N, ∀ a, win0_2.clip (grid0.coords t) a = none :=
  (by decide +kernel : ∀ t : Fin grid0.N, ∀ a, win0_2.clip (grid0.coords t) a = none)

/-- Every position of the first input's staging buffer is filled by the fetch. -/
theorem moved0 (t : Fin cfg0.N) (j : win0_0.block.Idx) : win0_0.moved (grid0.coords t) j = true :=
  (win0_0.moved_iff _ j).mpr fun a => by
    show (j a).val < (win0_0.clip (grid0.coords t) a).extent (win0_0.size a)
    rw [uncut0 t a]; exact (j a).isLt
theorem moved1 (t : Fin cfg0.N) (j : win0_1.block.Idx) : win0_1.moved (grid0.coords t) j = true :=
  (win0_1.moved_iff _ j).mpr fun a => by
    show (j a).val < (win0_1.clip (grid0.coords t) a).extent (win0_1.size a)
    rw [uncut1 t a]; exact (j a).isLt
theorem moved2 (t : Fin cfg0.N) (j : win0_2.block.Idx) : win0_2.moved (grid0.coords t) j = true :=
  (win0_2.moved_iff _ j).mpr fun a => by
    show (j a).val < (win0_2.clip (grid0.coords t) a).extent (win0_2.size a)
    rw [uncut2 t a]; exact (j a).isLt

/-- So the buffer after the fetch is the same whatever it held before. -/
theorem fill0 {α : Type} (t : Fin cfg0.N) (d d' : win0_0.block.Idx → α) (g : (win0_0.xblock (grid0.coords t)).Idx → α) :
    win0_0.fill (grid0.coords t) d g = win0_0.fill (grid0.coords t) d' g := by
  funext j; unfold Pipeline.Window.fill; rw [dif_pos (moved0 t j), dif_pos (moved0 t j)]
theorem fill1 {α : Type} (t : Fin cfg0.N) (d d' : win0_1.block.Idx → α) (g : (win0_1.xblock (grid0.coords t)).Idx → α) :
    win0_1.fill (grid0.coords t) d g = win0_1.fill (grid0.coords t) d' g := by
  funext j; unfold Pipeline.Window.fill; rw [dif_pos (moved1 t j), dif_pos (moved1 t j)]
theorem fill2 {α : Type} (t : Fin cfg0.N) (d d' : win0_2.block.Idx → α) (g : (win0_2.xblock (grid0.coords t)).Idx → α) :
    win0_2.fill (grid0.coords t) d g = win0_2.fill (grid0.coords t) d' g := by
  funext j; unfold Pipeline.Window.fill; rw [dif_pos (moved2 t j), dif_pos (moved2 t j)]

end Cert.KB

end
-- ==== Proof.BodyB.lean ====
/-
  The pipeline's proof data, the body obligation at every grid point, the run and the frame.

  Between points the two scratch accumulators hold the sums so far (`acc1`, `acc2`); every input window's staging
  buffer holds its block; the result's staging buffer is untouched until the last point, which stores the network's
  result into it, and that point alone writes it back.
-/
import proofs.«102448_j19670950215787_1_alg».proof.Proof.RunsB
import proofs.«102448_j19670950215787_1_alg».proof.Proof.UncutB
import Idealize.ShloMosaic.Lib.Pipeline.Value

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## Which point is which -/

/-- The first branch is taken at point 0 only. -/
theorem first_iff : ∀ t : Fin cfg0.N, condFirst (grid0.coords t) ↔ t.val = 0 :=
  (by decide +kernel : ∀ t : Fin grid0.N, condFirst (grid0.coords t) ↔ t.val = 0)
/-- The second branch is taken at point 88 only. -/
theorem last_iff : ∀ t : Fin cfg0.N, condLast (grid0.coords t) ↔ t.val = 88 :=
  (by decide +kernel : ∀ t : Fin grid0.N, condLast (grid0.coords t) ↔ t.val = 88)
/-- Away from the last point the body stores nothing into the result's buffer, and the pipeline does not write it back. -/
theorem idle13 : ∀ t : Fin cfg0.N, ¬condLast (grid0.coords t) → cfg0.idle 13 (grid0.coords t) = true := by decide +kernel
theorem noFlush13 : ∀ t : Fin cfg0.N, ¬condLast (grid0.coords t) → (cfg0.win 13).flush t = false := by decide +kernel
/-- At the last point it does. -/
theorem live13 : ∀ t : Fin cfg0.N, condLast (grid0.coords t) → cfg0.idle 13 (grid0.coords t) = false := by decide +kernel

/-! ## The invariant between points -/

/-- The two scratch accumulators, as memrefs. -/
abbrev scM0 : Memref sig .tc .vmem S1024x256 .f32 := Memref.whole cc0_scratch0
abbrev scM1 : Memref sig .tc .vmem S1024x256 .f32 := Memref.whole cc0_scratch1

/-- Before the first point the accumulators hold anything. -/
theorem PhiA_eq (c : Dev nD) :
    (ΦA spec0 c : sProp 𝕄)
      = iprop(((∃ d, owns (c : Thread nD τ) scM0 fullShare d) ∗ (∃ d, owns (c : Thread nD τ) scM1 fullShare d)) ∗ (∃ r, prngReg c r)) := by
  unfold ΦA; rw [scopedRest0_eq]; simp only [scM0, scM1, owns_whole]; rfl

/-- Before point `n`: anything before the first; afterwards the sums over the points before. -/
def PhiAt (c : Dev nD) : ℕ → sProp 𝕄
  | 0 => ΦA spec0 c
  | n + 1 => iprop((owns (c : Thread nD τ) scM0 fullShare (acc1 m c n) ∗ owns (c : Thread nD τ) scM1 fullShare (acc2 m c n)) ∗ (∃ r, prngReg c r))

/-! ## The proof data -/

/-- The arrays as the region finds them; after the body at point `t` every input's buffer at its block and the result's
    at the network's result (consulted at the last point only); the accumulators' sums between points; nothing owed. -/
def dats (_ : Fin 1) (c : Dev nD) : Dat τ (Elt F) Unit ℕ (UR sig nD τ) ℕ cfg0 c where
  A w := V m c (Pipeline.arrRef spec0 w)
  after w t := match w with
    | ⟨0, _⟩ => blkX1 m c t
    | ⟨1, _⟩ => blkX2 m c t
    | ⟨2, _⟩ => blkW m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => OUT m c
  Φ t := PhiAt m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blkX1 m c t := by dsimp only [dats]
theorem after1 (c : Dev nD) (t : Fin cfg0.N) : (dats m 0 c).after 1 t = blkX2 m c t := by dsimp only [dats]
theorem after2 (c : Dev nD) (t : Fin cfg0.N) : (dats m 0 c).after 2 t = blkW m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = OUT m c := by dsimp only [dats]

/-- What each input's buffer holds when the body runs: the three moving windows are fetched at every point, each fetch
    filling the whole buffer; the others hold their one block throughout. -/
theorem before0 (c : Dev nD) (t : Fin cfg0.N) (d) : (dats m 0 c).before 0 t d = blkX1 m c t := by
  unfold Dat.before; rw [if_pos (fetch0_0 t)]
  exact fill0 t d _ (iblk m c 0 t)
theorem before1 (c : Dev nD) (t : Fin cfg0.N) (d) : (dats m 0 c).before 1 t d = blkX2 m c t := by
  unfold Dat.before; rw [if_pos (fetch0_1 t)]
  exact fill1 t d _ (iblk m c 1 t)
theorem before2 (c : Dev nD) (t : Fin cfg0.N) (d) : (dats m 0 c).before 2 t d = blkW m c t := by
  unfold Dat.before; rw [if_pos (fetch0_2 t)]
  exact fill2 t d _ (iblk m c 2 t)
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

theorem Phi_castSucc (c : Dev nD) (t : Fin cfg0.N) : (dats m 0 c).Φ t.castSucc = PhiAt m c t.val := by
  dsimp only [dats]; simp only [Fin.coe_castSucc]
theorem Phi_succ (c : Dev nD) (t : Fin cfg0.N) : (dats m 0 c).Φ t.succ = PhiAt m c (t.val + 1) := by
  dsimp only [dats]; simp only [Fin.val_succ]

/-- The network's result, with the last point's update of the accumulators spelt out. -/
theorem OUT_last (c : Dev nD) :
    OUT m c = k0_pay6 (k0_pay7 (iblk m c 3 tLast) (iblk m c 4 tLast) (iblk m c 5 tLast)
        (k0_pay4 (blkX1 m c tLast) (blkW m c tLast) (acc1 m c 87)) (iblk m c 6 tLast)
        (k0_pay5 (blkX2 m c tLast) (blkW m c tLast) (acc2 m c 87)) (iblk m c 6 tLast) (iblk m c 7 tLast) (iblk m c 8 tLast))
      (iblk m c 9 tLast) (iblk m c 10 tLast) (iblk m c 11 tLast) (iblk m c 12 tLast) := by
  unfold OUT
  rw [show acc1 m c 88 = _ from acc1_succ m c 87 (by decide), show acc2 m c 88 = _ from acc2_succ m c 87 (by decide)]

/-- The same at the last point written as the successor of the point before. -/
theorem OUT_at (c : Dev nD) (n : ℕ) (hn : n + 1 < cfg0.N) (h : n + 1 = 88) :
    OUT m c = k0_pay6 (k0_pay7 (iblk m c 3 ⟨n + 1, hn⟩) (iblk m c 4 ⟨n + 1, hn⟩) (iblk m c 5 ⟨n + 1, hn⟩)
        (k0_pay4 (blkX1 m c ⟨n + 1, hn⟩) (blkW m c ⟨n + 1, hn⟩) (acc1 m c n)) (iblk m c 6 ⟨n + 1, hn⟩)
        (k0_pay5 (blkX2 m c ⟨n + 1, hn⟩) (blkW m c ⟨n + 1, hn⟩) (acc2 m c n)) (iblk m c 6 ⟨n + 1, hn⟩) (iblk m c 7 ⟨n + 1, hn⟩) (iblk m c 8 ⟨n + 1, hn⟩))
      (iblk m c 9 ⟨n + 1, hn⟩) (iblk m c 10 ⟨n + 1, hn⟩) (iblk m c 11 ⟨n + 1, hn⟩) (iblk m c 12 ⟨n + 1, hn⟩) := by
  obtain rfl : n = 87 := by omega
  exact OUT_last m c

/-- After the first point the invariant names the accumulators' contents. -/
theorem PhiAt_pos (c : Dev nD) (n : ℕ) (h : n ≠ 0) :
    PhiAt m c n = iprop((owns (c : Thread nD τ) scM0 fullShare (acc1 m c (n - 1)) ∗ owns (c : Thread nD τ) scM1 fullShare (acc2 m c (n - 1))) ∗ (∃ r, prngReg c r)) := by
  cases n with
  | zero => exact absurd rfl h
  | succ n => rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4000000 in
/-- At every point the run of that point's kind applies: the invariant hands it the accumulators at the sums so far
    (at anything, at the first point) and takes them back one block product further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).owesAt () t.succ = (dats m 0 c).owesAt () t.castSucc from rfl, Phi_castSucc, Phi_succ]
  rw [show (dats m 0 c).leavesExact 0 t = owns (c : Thread nD τ) (st0_0 t) fullShare ((dats m 0 c).after 0 t) from rfl, after0]
  rw [show (dats m 0 c).leavesExact 1 t = owns (c : Thread nD τ) (st0_1 t) fullShare ((dats m 0 c).after 1 t) from rfl, after1]
  rw [show (dats m 0 c).leavesExact 2 t = owns (c : Thread nD τ) (st0_2 t) fullShare ((dats m 0 c).after 2 t) from rfl, after2]
  rw [show (dats m 0 c).leavesExact 3 t = owns (c : Thread nD τ) (st0_3 t) fullShare ((dats m 0 c).after 3 t) from rfl, after3]
  rw [show (dats m 0 c).leavesExact 4 t = owns (c : Thread nD τ) (st0_4 t) fullShare ((dats m 0 c).after 4 t) from rfl, after4]
  rw [show (dats m 0 c).leavesExact 5 t = owns (c : Thread nD τ) (st0_5 t) fullShare ((dats m 0 c).after 5 t) from rfl, after5]
  rw [show (dats m 0 c).leavesExact 6 t = owns (c : Thread nD τ) (st0_6 t) fullShare ((dats m 0 c).after 6 t) from rfl, after6]
  rw [show (dats m 0 c).leavesExact 7 t = owns (c : Thread nD τ) (st0_7 t) fullShare ((dats m 0 c).after 7 t) from rfl, after7]
  rw [show (dats m 0 c).leavesExact 8 t = owns (c : Thread nD τ) (st0_8 t) fullShare ((dats m 0 c).after 8 t) from rfl, after8]
  rw [show (dats m 0 c).leavesExact 9 t = owns (c : Thread nD τ) (st0_9 t) fullShare ((dats m 0 c).after 9 t) from rfl, after9]
  rw [show (dats m 0 c).leavesExact 10 t = owns (c : Thread nD τ) (st0_10 t) fullShare ((dats m 0 c).after 10 t) from rfl, after10]
  rw [show (dats m 0 c).leavesExact 11 t = owns (c : Thread nD τ) (st0_11 t) fullShare ((dats m 0 c).after 11 t) from rfl, after11]
  rw [show (dats m 0 c).leavesExact 12 t = owns (c : Thread nD τ) (st0_12 t) fullShare ((dats m 0 c).after 12 t) from rfl, after12]
  obtain ⟨n, hn⟩ := t
  cases n with
  | zero =>
    have hc1 : condFirst (grid0.coords ⟨0, hn⟩) := (first_iff _).mpr rfl
    have hc2 : ¬condLast (grid0.coords ⟨0, hn⟩) := fun h => absurd ((last_iff _).mp h) (show ¬ (0 : ℕ) = 88 by decide)
    rw [Dat.leavesExact_idle (dats m 0 c) 13 _ (idle13 _ hc2) (noFlush13 _ hc2)]
    rw [show PhiAt m c ((⟨0, hn⟩ : Fin cfg0.N).val) = ΦA spec0 c from rfl, PhiA_eq]
    rw [show PhiAt m c ((⟨0, hn⟩ : Fin cfg0.N).val + 1) = iprop((owns (c : Thread nD τ) scM0 fullShare (acc1 m c 0) ∗ owns (c : Thread nD τ) scM1 fullShare (acc2 m c 0)) ∗ (∃ r, prngReg c r)) from rfl]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (sound_first c (grid0.coords ⟨0, hn⟩) _ _ _ _ _ _ _ _ _ _ _ _ _ _ _ _ _ _ _ _ _ _ _ _ _ _ _ _ _ _ _ _ hc1 hc2 (blkX1 m c ⟨0, hn⟩) (blkX2 m c ⟨0, hn⟩) (blkW m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) _ e0 e1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    isplitl [HS0 HS1 Hg]
    · isplitr [Hg]
      · isplitl [HS0]; · iexact HS0
        iexact HS1
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists _; iexact H13
  | succ n =>
    have hc1 : ¬condFirst (grid0.coords ⟨n + 1, hn⟩) := fun h => absurd ((first_iff _).mp h) (Nat.succ_ne_zero n)
    rw [show PhiAt m c ((⟨n + 1, hn⟩ : Fin cfg0.N).val) = iprop((owns (c : Thread nD τ) scM0 fullShare (acc1 m c n) ∗ owns (c : Thread nD τ) scM1 fullShare (acc2 m c n)) ∗ (∃ r, prngReg c r)) from rfl]
    rw [show PhiAt m c ((⟨n + 1, hn⟩ : Fin cfg0.N).val + 1) = iprop((owns (c : Thread nD τ) scM0 fullShare (acc1 m c (n + 1)) ∗ owns (c : Thread nD τ) scM1 fullShare (acc2 m c (n + 1))) ∗ (∃ r, prngReg c r)) from rfl]
    rw [acc1_succ m c n hn, acc2_succ m c n hn]
    by_cases hL : n + 1 = 88
    · have hc2 : condLast (grid0.coords ⟨n + 1, hn⟩) := (last_iff _).mpr hL
      rw [show (dats m 0 c).leavesExact 13 ⟨n + 1, hn⟩ = owns (c : Thread nD τ) (st0_13 ⟨n + 1, hn⟩) fullShare ((dats m 0 c).after 13 ⟨n + 1, hn⟩) from by
        unfold Dat.leavesExact; rw [live13 _ hc2], after13, OUT_at m c n hn hL]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (sound_last c (grid0.coords ⟨n + 1, hn⟩) _ _ _ _ _ _ _ _ _ _ _ _ _ _ _ _ _ _ _ _ _ _ _ _ _ _ _ _ _ _ _ _ hc1 hc2 (blkX1 m c ⟨n + 1, hn⟩) (blkX2 m c ⟨n + 1, hn⟩) (blkW m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) _ (acc1 m c n) (acc2 m c n) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      isplitl [HS0 HS1 Hg]
      · isplitr [Hg]
        · isplitl [HS0]; · iexact HS0
          iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc2 : ¬condLast (grid0.coords ⟨n + 1, hn⟩) := fun h => hL ((last_iff _).mp h)
      rw [Dat.leavesExact_idle (dats m 0 c) 13 _ (idle13 _ hc2) (noFlush13 _ hc2)]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (sound_mid c (grid0.coords ⟨n + 1, hn⟩) _ _ _ _ _ _ _ _ _ _ _ _ _ _ _ _ _ _ _ _ _ _ _ _ _ _ _ _ _ _ _ _ hc1 hc2 (blkX1 m c ⟨n + 1, hn⟩) (blkX2 m c ⟨n + 1, hn⟩) (blkW m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) _ (acc1 m c n) (acc2 m c n) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      isplitl [HS0 HS1 Hg]
      · isplitr [Hg]
        · isplitl [HS0]; · iexact HS0
          iexact HS1
        · iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexists _; iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KB

end
-- ==== Proof.RunB.lean ====
/-
  The launch: the invariant's two ends, the run of @main, and the result's array after it.
-/
import proofs.«102448_j19670950215787_1_alg».proof.Proof.BodyB
import Idealize.ShloMosaic.Lib.Pipeline.Value

set_option maxRecDepth 16384

noncomputable section

namespace Cert.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : ΦA spec0 c ⊢ (dats m 0 c).Φ 0 := by
  rw [show (dats m 0 c).Φ 0 = ΦA spec0 c from rfl]

/-- After the last point the invariant gives the accumulators back at contents nobody names. -/
theorem hout (c : Dev nD) : (dats m 0 c).Φ (Fin.last cfg0.N) ⊢ ΦA spec0 c := by
  rw [show (dats m 0 c).Φ (Fin.last cfg0.N) = PhiAt m c (Fin.last cfg0.N).val from rfl,
    PhiAt_pos m c _ (by rw [Fin.val_last]; have : cfg0.N = 89 := N_0; omega), PhiA_eq]
  iintro ⟨⟨HS0, HS1⟩, Hg⟩
  isplitr [Hg]
  · isplitl [HS0]; · iexists _; iexact HS0
    iexists _; iexact HS1
  · iexact Hg

/-! ## The run, and the result's array after it -/

set_option backward.isDefEq.respectTransparency.types false in
/-- From any memory with zero counters every weakly fair execution of @main terminates, every array of the pipeline
    ending at what the library computes from the proof data and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The result's one block is the whole array and only the last point writes it back: the array ends at what that
    point stored. -/
theorem finalA (c : Dev nD) : (dats m 0 c).arrAt 13 cfg0.N = OUT m c := by
  rw [show cfg0.N = tLast.val + 1 from rfl, (dats m 0 c).arrAt_succ 13 tLast,
    if_pos (show (cfg0.win 13).flush tLast = true from (flush0_13 tLast).mpr rfl)]
  have hz : (fun a => (win0_13.index tLast) a * main_v3.ty.shape.size a) = fun _ => 0 := funext fun a => by fin_cases a <;> decide
  refine (Memref.write_access_unit_zero_univ (Elt F) main_v3 hz _ _ _).trans ?_
  exact after13 m c tLast

end Cert.KB

end
-- ==== Proof.Spec.lean ====
/-
  What the network computes, as one function of the ten argument arrays, spelt with the reference's own
  operations: each perspective's feature vector is `x · W_in + b_in` (the whole 125388-term contraction in one
  product), the two are laid side by side, clipped to [0, 1], and passed through three affine layers, the first
  two clipped to [0, 1] again.
-/
import proofs.«102448_j19670950215787_1_alg».proof.Proof.Gen.ReferenceIdeal

noncomputable section

namespace Cert.Spec

open Idealize.ShloMosaic Cert.ReferenceIdeal Cert.ReferenceIdeal.Gen

variable {F : FTy → Type} [FloatOps F]

/-- One perspective's features: the input row times the whole input matrix, plus the bias along every row. -/
def feat (x : FVec F S1024x125388 .f32) (W : FVec F S125388x256 .f32) (b : FVec F S256 .f32) : FVec F S1024x256 .f32 :=
  addf (Host.dotGeneral dot_S1024x125388_S125388x256_S1024x256_1_0_0_1_n_n none x W)
    (broadcastInDim S1024x256 ![0, 1] bcast_S1x256_S1024x256_0_1 (broadcastInDim S1x256 ![1] bcast_S256_S1x256_1 b))

/-- Everything after the features: the two halves side by side, clipped, then the three layers. -/
def head (A1 A2 : FVec F S1024x256 .f32) (W1 : FVec F S512x32 .f32) (b1 : FVec F S32 .f32) (W2 : FVec F S32x32 .f32)
    (b2 : FVec F S32 .f32) (Wo : FVec F S32x1 .f32) (bo : FVec F S1 .f32) : FVec F S1024x1 .f32 :=
  addf (Host.dotGeneral dot_S1024x32_S32x1_S1024x1_1_0_0_1_n_n none (minimumf (broadcastInDim S1024x32 ![] bcast_S_S1024x32 (id (constant S_ .f32 0x3F800000#32))) (maximumf (broadcastInDim S1024x32 ![] bcast_S_S1024x32 (id (constant S_ .f32 0x00000000#32))) (addf (Host.dotGeneral dot_S1024x32_S32x32_S1024x32_1_0_0_1_n_n none (minimumf (broadcastInDim S1024x32 ![] bcast_S_S1024x32 (id (constant S_ .f32 0x3F800000#32))) (maximumf (broadcastInDim S1024x32 ![] bcast_S_S1024x32 (id (constant S_ .f32 0x00000000#32))) (addf (Host.dotGeneral dot_S1024x512_S512x32_S1024x32_1_0_0_1_n_n none (minimumf (broadcastInDim S1024x512 ![] bcast_S_S1024x512 (id (constant S_ .f32 0x3F800000#32))) (maximumf (broadcastInDim S1024x512 ![] bcast_S_S1024x512 (id (constant S_ .f32 0x00000000#32))) (concatenate S1024x512 1 [⟨S1024x256, A1⟩, ⟨S1024x256, A2⟩] concatenates_S1024x256_S1024x256_S1024x512_d1))) W1) (broadcastInDim S1024x32 ![0, 1] bcast_S1x32_S1024x32_0_1 (broadcastInDim S1x32 ![1] bcast_S32_S1x32_1 b1))))) W2) (broadcastInDim S1024x32 ![0, 1] bcast_S1x32_S1024x32_0_1 (broadcastInDim S1x32 ![1] bcast_S32_S1x32_1 b2))))) Wo) (broadcastInDim S1024x1 ![0, 1] bcast_S1x1_S1024x1_0_1 (broadcastInDim S1x1 ![1] bcast_S1_S1x1_1 bo))

/-- The network's result as one function of the arguments. -/
def G (x1 x2 : FVec F S1024x125388 .f32) (W : FVec F S125388x256 .f32) (bin : FVec F S256 .f32) (W1 : FVec F S512x32 .f32)
    (b1 : FVec F S32 .f32) (W2 : FVec F S32x32 .f32) (b2 : FVec F S32 .f32) (Wo : FVec F S32x1 .f32) (bo : FVec F S1 .f32) :
    FVec F S1024x1 .f32 :=
  head (feat x1 W bin) (feat x2 W bin) W1 b1 W2 b2 Wo bo

end Cert.Spec

end
-- ==== Proof.KFeat.lean ====
/-
  Names shared by the parts of the value proof, at the ideal values.

  `featK`: one perspective's features the way the kernel's last point forms them — the finished accumulator, plus
  the product over the last 76 columns, plus the bias of the column. `rowN` / `colN`: a row of an input and a
  column of the input matrix as functions of a natural position along the contracted axis (zero past its end), so
  that positions can be written `1408 · t + j` and `125312 + j` with no bound to carry.
-/
import proofs.«102448_j19670950215787_1_alg».proof.KernelIdeal
import Idealize.ShloMosaic.Lib.ValueIdx
import Idealize.ShloMosaic.PureOps.Ideal

open scoped BigOperators

noncomputable section

namespace Cert.KV

open Cert.KernelIdeal Idealize.ShloMosaic Idealize.ShloMosaic.ValueIdx

/-- The accumulator plus the 76-column remainder's product plus the bias, element by element. -/
def featK (xt : FVec Ideal S1024x76 .f32) (wt : FVec Ideal S76x256 .f32) (acc : FVec Ideal S1024x256 .f32)
    (b : FVec Ideal S256 .f32) : FVec Ideal S1024x256 .f32 :=
  fun j => (acc j + ∑ k : Fin 76, xt (ix2 (j 0) k) * wt (ix2 k (j 1))) + b (ix1 (j 1))

/-- Row `p` of an input at position `k` of the contracted axis. -/
def rowN (x : FVec Ideal S1024x125388 .f32) (p : Fin 1024) (k : ℕ) : EReal :=
  if h : k < 125388 then x (ix2 p ⟨k, h⟩) else 0

/-- Column `q` of the input matrix at position `k` of the contracted axis. -/
def colN (W : FVec Ideal S125388x256 .f32) (k : ℕ) (q : Fin 256) : EReal :=
  if h : k < 125388 then W (ix2 ⟨k, h⟩ q) else 0

end Cert.KV

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KTail.lean ====
/-
  The last grid point's arithmetic against the reference's layers, at the ideal values.

  At its last point the kernel adds to each accumulator the product over the remaining 76 columns and the bias of
  the column, lays the two results side by side, clips to [0, 1], and applies three affine layers, the first two
  clipped to [0, 1] again. The reference applies the same layers to its own two feature arrays. The two texts spell
  the same arrays differently in three places:
  • a product accumulated into a zero array against a plain product: both are `∑ k, l (p, k) · r (k, q)`;
  • a bias vector cast to one row and broadcast down the rows against the vector broadcast to one row along axis 1
    and that row broadcast along both axes: both read entry `q` of the vector at `(p, q)`;
  • a clip bound as the splat of a scalar against the broadcast, along no axis, of a rank-0 constant: both are the
    constant array of that value.
  Rounding an operand to the narrower float type is the identity on the extended reals, and a cast to the same shape
  is the identity. With these the kernel's term over the two arrays `featK …` is the reference's `head` of them.
-/
import proofs.«102448_j19670950215787_1_alg».proof.Proof.Spec
import proofs.«102448_j19670950215787_1_alg».proof.Proof.KFeat
import proofs.«102448_j19670950215787_1_alg».proof.Proof.LibPlainDot
import proofs.«102448_j19670950215787_1_alg».proof.Proof.Gen.KernelIdeal.Skeleton
import proofs.«102448_j19670950215787_1_alg».proof.Proof.Gen.KernelIdeal
import proofs.«102448_j19670950215787_1_alg».proof.Proof.Gen.ReferenceIdeal
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal

open scoped BigOperators

noncomputable section

namespace Cert.KV

open Cert.KernelIdeal Cert.KernelIdeal.Gen Idealize.ShloMosaic Idealize.ShloMosaic.ValueIdx

/-- A vector of `n` entries laid along each of `m` rows. One text casts it to a one-row matrix and broadcasts the
    row downwards; the other broadcasts it to a one-row matrix along axis 1 and then that matrix along both axes.
    At `(p, q)` both read the vector's entry `q`. -/
theorem rowBias_eq {α : Type} {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ x h1) hb
      = broadcastInDim ⟨2, ![m, n]⟩ ![0, 1] hd2 (broadcastInDim ⟨2, ![1, n]⟩ ![1] hd1 x) := by
  funext j
  obtain ⟨p, q, rfl⟩ : ∃ (p : Fin m) (q : Fin n), j = ix2 p q := ⟨j 0, j 1, eq_ix2 j⟩
  rw [broadcastTo_1b_ab_apply, shapeCast_a_1a_apply, broadcastInDim_oneRow_apply]
  refine (broadcastInDim_apply ![1] hd1 x (ix2 (0 : Fin 1) q) (ix1 q) ?_).symm
  intro a
  match a with
  | ⟨0, _⟩ =>
    show q.val = if n = 1 then 0 else q.val
    split
    · have := q.isLt; omega
    · rfl

/-- A scalar laid over a whole array: the splat of the scalar with given bits is the broadcast, along no axis, of the
    rank-0 constant with those bits. -/
theorem splat_eq {t : Shape} (h : (⟨0, ![]⟩ : Shape).BroadcastsInDim t ![]) (b : BitVec 32) :
    broadcast t (Scalar.ofBits (F := Ideal) .f32 b)
      = broadcastInDim t ![] h (id (constant (F := Ideal) ⟨0, ![]⟩ .f32 b)) :=
  funext fun _ => rfl

/-- One perspective's first-layer input as the last grid point forms it: the accumulator, plus the product over the
    76 remaining columns (its operands rounded to the narrower type, which changes nothing on the extended reals),
    plus the bias laid along every row. Element `(p, q)` is `acc (p, q) + ∑ k, xt (p, k) · wt (k, q) + b q`. -/
theorem feat_eq (xt : Vec Ideal S1024x76 .f32) (wt : Vec Ideal S76x256 .f32) (acc : Vec Ideal S1024x256 .f32)
    (b : Vec Ideal S256 .f32) :
    addf (addf acc (matmul dot_S1024x76_S76x256_S1024x256_1_0_0_1_n_n none
        (truncf .bf16 (shapeCast S1024x76 xt shapeCasts_S1024x76_S1024x76) bitsLt_bf16_f32)
        (truncf .bf16 (shapeCast S76x256 wt shapeCasts_S76x256_S76x256) bitsLt_bf16_f32)
        (constant S1024x256 .f32 0x00000000#32)))
      (broadcastTo S1024x256 (shapeCast S1x256 b shapeCasts_S256_S1x256) broadcasts_S1x256_S1024x256)
    = featK xt wt acc b := by
  funext j
  obtain ⟨p, q, rfl⟩ : ∃ (p : Fin 1024) (q : Fin 256), j = ix2 p q := ⟨j 0, j 1, eq_ix2 j⟩
  unfold featK
  rw [addf_apply, addf_apply,
    PlainDot.matmul_zero_apply (K := 76) dot_S1024x76_S76x256_S1024x256_1_0_0_1_n_n rfl rfl rfl rfl rfl rfl rfl rfl,
    broadcastTo_1b_ab_apply, shapeCast_a_1a_apply]
  simp only [truncf_apply, shapeCast_self]

/-- The last grid point's arithmetic is the reference's layers over the two feature arrays: each product into a zero
    accumulator is the plain product, each bias row and each clip bound is the same array under both spellings. -/
theorem kernel_tail_eq (v24 v27 : Vec Ideal S1024x76 .f32) (v30 : Vec Ideal S76x256 .f32) (v35 v41 : Vec Ideal S1024x256 .f32)
    (v37 : Vec Ideal S256 .f32) (v52 : Vec Ideal S512x32 .f32) (v54 : Vec Ideal S32 .f32) (v62 : Vec Ideal S32x32 .f32)
    (v64 : Vec Ideal S32 .f32) (v72 : Vec Ideal S32x1 .f32) (v74 : Vec Ideal S1 .f32) :
    k0_pay6 (F := Ideal) (k0_pay7 v24 v27 v30 v35 v37 v41 v37 v52 v54) v62 v64 v72 v74
      = Cert.Spec.head (F := Ideal) (featK v24 v30 v35 v37) (featK v27 v30 v41 v37) v52 v54 v62 v64 v72 v74 := by
  unfold k0_pay6 k0_pay7 Cert.Spec.head
  dsimp only
  rw [feat_eq, feat_eq, matmul_zero_eq_dotGeneral, matmul_zero_eq_dotGeneral, matmul_zero_eq_dotGeneral,
    rowBias_eq v54 _ _ ReferenceIdeal.Gen.bcast_S32_S1x32_1 ReferenceIdeal.Gen.bcast_S1x32_S1024x32_0_1,
    rowBias_eq v64 _ _ ReferenceIdeal.Gen.bcast_S32_S1x32_1 ReferenceIdeal.Gen.bcast_S1x32_S1024x32_0_1,
    rowBias_eq v74 _ _ ReferenceIdeal.Gen.bcast_S1_S1x1_1 ReferenceIdeal.Gen.bcast_S1x1_S1024x1_0_1,
    splat_eq ReferenceIdeal.Gen.bcast_S_S1024x32 0x3F800000#32, splat_eq ReferenceIdeal.Gen.bcast_S_S1024x32 0x00000000#32,
    splat_eq ReferenceIdeal.Gen.bcast_S_S1024x512 0x3F800000#32, splat_eq ReferenceIdeal.Gen.bcast_S_S1024x512 0x00000000#32]
  rfl

end Cert.KV

end
-- ==== Proof.KAcc.lean ====
/-
  The two scratch accumulators after the last grid point, element by element.

  Point `t` of the 89 multiplies columns 1408·t … 1408·t + 1407 of an input by rows 1408·t … 1408·t + 1407 of the
  input matrix and adds the product to an accumulator that point 0 zeroed. Three facts give the closed form. A staged
  block's element `(p, j)` is the array's element at block index × block size + the coordinate inside the block, and
  89 · 1408 = 125312 ≤ 125388 keeps that position inside the contracted axis. One point's update at `(p, q)` is what
  the accumulator held plus `∑ j, x (p, j) · w (j, q)` over the 1408 positions of the block (on the extended reals the
  narrowing to the product's operand type is the identity and `0 + a = a`). Induction over the points then sums the
  block products, and the sum over the first 89 naturals is the sum over the points.
-/
import proofs.«102448_j19670950215787_1_alg».proof.Proof.BodyDefs
import proofs.«102448_j19670950215787_1_alg».proof.Proof.KFeat
import proofs.«102448_j19670950215787_1_alg».proof.Proof.Uncut
import proofs.«102448_j19670950215787_1_alg».proof.Proof.LibPlainDot
import Idealize.ShloMosaic.Lib.ValueIdx
import Idealize.ShloMosaic.Lib.Pipeline.Value
import Idealize.ShloMosaic.PureOps.Ideal.Laws
import Mathlib.Algebra.BigOperators.Group.Finset.Basic
import Mathlib.Algebra.BigOperators.Fin

open scoped BigOperators

noncomputable section

namespace Cert.KV

open Cert.KernelIdeal Cert.KernelIdeal.Gen Cert.KI
open Idealize.ShloMosaic Idealize.ShloMosaic.TcCoe Idealize.ShloMosaic.ValueIdx Idealize.SL.Sem

variable (m : (ℓ : Loc nD τ sig) → Buf (Elt Ideal) ℓ) (c : Dev nD)

/-! ## Where a block sits in its array

The block index of each moving window at point `t`, decided over the 89 points: the inputs' blocks advance along the
second axis, the input matrix's along the first. -/

theorem idx0 : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)
theorem idx1 : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-! ## The staging contents at a point, element by element

An element's coordinate in the array is the block index times the block's size plus its coordinate in the block;
89 · 1408 ≤ 125388, so the position is inside the contracted axis. -/

/-- Point `t`'s block of the first input, at row `p` and position `j` of the block. -/
theorem blkX1_apply (t : Fin cfg0.N) (p : Fin 1024) (j : Fin 1408) :
    blkX1 (F := Ideal) m c t (ix2 p j) = rowN (m ((c : Thread nD τ).loc main_arg0)) p (1408 * t.val + j.val) := by
  have ht : t.val < 89 := t.isLt
  have hj : j.val < 1408 := j.isLt
  obtain ⟨e0, e1⟩ := idx0 t
  unfold blkX1 Pipeline.Window.fill
  rw [dif_pos (moved0 t _)]
  unfold iblk
  show V m c main_arg0 (((cfg0.win 0).blk t).view.emb _) = _
  rw [V_main_arg0]
  unfold rowN
  rw [dif_pos (by omega : 1408 * t.val + j.val < 125388)]
  refine congrArg _ ?_
  funext a; apply Fin.ext
  match a with
  | ⟨0, _⟩ => show win0_0.index t (0 : Fin 2) * 1024 + 1 * p.val = p.val; omega
  | ⟨1, _⟩ => show win0_0.index t (1 : Fin 2) * 1408 + 1 * j.val = 1408 * t.val + j.val; omega

/-- Point `t`'s block of the second input, at row `p` and position `j` of the block. -/
theorem blkX2_apply (t : Fin cfg0.N) (p : Fin 1024) (j : Fin 1408) :
    blkX2 (F := Ideal) m c t (ix2 p j) = rowN (m ((c : Thread nD τ).loc main_arg1)) p (1408 * t.val + j.val) := by
  have ht : t.val < 89 := t.isLt
  have hj : j.val < 1408 := j.isLt
  obtain ⟨e0, e1⟩ := idx1 t
  unfold blkX2 Pipeline.Window.fill
  rw [dif_pos (moved1 t _)]
  unfold iblk
  show V m c main_arg1 (((cfg0.win 1).blk t).view.emb _) = _
  rw [V_main_arg1]
  unfold rowN
  rw [dif_pos (by omega : 1408 * t.val + j.val < 125388)]
  refine congrArg _ ?_
  funext a; apply Fin.ext
  match a with
  | ⟨0, _⟩ => show win0_1.index t (0 : Fin 2) * 1024 + 1 * p.val = p.val; omega
  | ⟨1, _⟩ => show win0_1.index t (1 : Fin 2) * 1408 + 1 * j.val = 1408 * t.val + j.val; omega

/-- Point `t`'s block of the input matrix, at position `j` of the block and column `q`. -/
theorem blkW_apply (t : Fin cfg0.N) (j : Fin 1408) (q : Fin 256) :
    blkW (F := Ideal) m c t (ix2 j q) = colN (m ((c : Thread nD τ).loc main_arg2)) (1408 * t.val + j.val) q := by
  have ht : t.val < 89 := t.isLt
  have hj : j.val < 1408 := j.isLt
  obtain ⟨e0, e1⟩ := idx2 t
  unfold blkW Pipeline.Window.fill
  rw [dif_pos (moved2 t _)]
  unfold iblk
  show V m c main_arg2 (((cfg0.win 2).blk t).view.emb _) = _
  rw [V_main_arg2]
  unfold colN
  rw [dif_pos (by omega : 1408 * t.val + j.val < 125388)]
  refine congrArg _ ?_
  funext a; apply Fin.ext
  match a with
  | ⟨0, _⟩ => show win0_2.index t (0 : Fin 2) * 1408 + 1 * j.val = 1408 * t.val + j.val; omega
  | ⟨1, _⟩ => show win0_2.index t (1 : Fin 2) * 256 + 1 * q.val = q.val; omega

/-! ## One point's arithmetic, element by element -/

/-- The value the accumulators are zeroed with. -/
theorem pay1_apply (p : Fin 1024) (q : Fin 256) : k0_pay1 (F := Ideal) (ix2 p q) = 0 := by
  unfold k0_pay1
  rw [shapeCast_self]
  show Ideal.ofBits .f32 0x00000000#32 = 0
  exact Ideal.ofBits_zero_f32

theorem pay2_apply (p : Fin 1024) (q : Fin 256) : k0_pay2 (F := Ideal) (ix2 p q) = 0 := by
  unfold k0_pay2
  rw [shapeCast_self]
  show Ideal.ofBits .f32 0x00000000#32 = 0
  exact Ideal.ofBits_zero_f32

/-- A point's update of the first accumulator: what it held plus the block product. -/
theorem pay4_apply (v3 : Vec Ideal S1024x1408 .f32) (v7 : Vec Ideal S1408x256 .f32) (v9 : Vec Ideal S1024x256 .f32)
    (p : Fin 1024) (q : Fin 256) :
    k0_pay4 v3 v7 v9 (ix2 p q) = v9 (ix2 p q) + ∑ j : Fin 1408, v3 (ix2 p j) * v7 (ix2 j q) := by
  unfold k0_pay4 k0_pay3
  rw [shapeCast_self, addf_apply,
    PlainDot.matmul_zero_apply (M := 1024) (K := 1408) (N := 256) dot_S1024x1408_S1408x256_S1024x256_1_0_0_1_n_n
      rfl rfl rfl rfl rfl rfl rfl rfl]
  rfl

/-- A point's update of the second accumulator. -/
theorem pay5_apply (v5 : Vec Ideal S1024x1408 .f32) (v7 : Vec Ideal S1408x256 .f32) (v15 : Vec Ideal S1024x256 .f32)
    (p : Fin 1024) (q : Fin 256) :
    k0_pay5 v5 v7 v15 (ix2 p q) = v15 (ix2 p q) + ∑ j : Fin 1408, v5 (ix2 p j) * v7 (ix2 j q) := by
  unfold k0_pay5 k0_pay3
  rw [shapeCast_self, addf_apply,
    PlainDot.matmul_zero_apply (M := 1024) (K := 1408) (N := 256) dot_S1024x1408_S1408x256_S1024x256_1_0_0_1_n_n
      rfl rfl rfl rfl rfl rfl rfl rfl]
  rfl

/-! ## The accumulators after point `n` -/

/-- After point `n` the first accumulator holds the block products of points 0 … n. -/
theorem acc1_range (n : ℕ) (hn : n < 89) (p : Fin 1024) (q : Fin 256) :
    acc1 (F := Ideal) m c n (ix2 p q)
      = ∑ t ∈ Finset.range (n + 1), ∑ j : Fin 1408,
          rowN (m ((c : Thread nD τ).loc main_arg0)) p (1408 * t + j.val)
            * colN (m ((c : Thread nD τ).loc main_arg2)) (1408 * t + j.val) q := by
  induction n with
  | zero =>
    rw [acc1, pay4_apply, pay1_apply, zero_add, Finset.sum_range_one]
    refine Finset.sum_congr rfl fun j _ => ?_
    rw [blkX1_apply, blkW_apply]
  | succ n ih =>
    have h : n + 1 < cfg0.N := hn
    rw [acc1_succ m c n h, pay4_apply, ih (by omega), Finset.sum_range_succ _ (n + 1)]
    refine congrArg _ (Finset.sum_congr rfl fun j _ => ?_)
    rw [blkX1_apply, blkW_apply]

/-- After point `n` the second accumulator holds the block products of points 0 … n. -/
theorem acc2_range (n : ℕ) (hn : n < 89) (p : Fin 1024) (q : Fin 256) :
    acc2 (F := Ideal) m c n (ix2 p q)
      = ∑ t ∈ Finset.range (n + 1), ∑ j : Fin 1408,
          rowN (m ((c : Thread nD τ).loc main_arg1)) p (1408 * t + j.val)
            * colN (m ((c : Thread nD τ).loc main_arg2)) (1408 * t + j.val) q := by
  induction n with
  | zero =>
    rw [acc2, pay5_apply, pay2_apply, zero_add, Finset.sum_range_one]
    refine Finset.sum_congr rfl fun j _ => ?_
    rw [blkX2_apply, blkW_apply]
  | succ n ih =>
    have h : n + 1 < cfg0.N := hn
    rw [acc2_succ m c n h, pay5_apply, ih (by omega), Finset.sum_range_succ _ (n + 1)]
    refine congrArg _ (Finset.sum_congr rfl fun j _ => ?_)
    rw [blkX2_apply, blkW_apply]

/-- After the last point the first accumulator holds, at `(p, q)`, the sum over the 89 points and the 1408 positions
    of a block of input(p, 1408 t + j) · matrix(1408 t + j, q). -/
theorem acc1_apply (p : Fin 1024) (q : Fin 256) :
    acc1 (F := Ideal) m c 88 (ix2 p q)
      = ∑ t : Fin 89, ∑ j : Fin 1408, rowN (m ((c : Thread nD τ).loc main_arg0)) p (1408 * t.val + j.val)
          * colN (m ((c : Thread nD τ).loc main_arg2)) (1408 * t.val + j.val) q := by
  rw [acc1_range m c 88 (by omega) p q]
  exact Finset.sum_range _

/-- The same for the second accumulator and the second input. -/
theorem acc2_apply (p : Fin 1024) (q : Fin 256) :
    acc2 (F := Ideal) m c 88 (ix2 p q)
      = ∑ t : Fin 89, ∑ j : Fin 1408, rowN (m ((c : Thread nD τ).loc main_arg1)) p (1408 * t.val + j.val)
          * colN (m ((c : Thread nD τ).loc main_arg2)) (1408 * t.val + j.val) q := by
  rw [acc2_range m c 88 (by omega) p q]
  exact Finset.sum_range _

end Cert.KV

end
-- ==== Proof.KSplit.lean ====
/-
  The contraction split into the kernel's blocks.

  A sum over the 125388 positions of the contracted axis is the sum over 89 consecutive blocks of 1408 positions
  plus the sum over the last 76 (125388 = 89 · 1408 + 76, and 89 · 1408 = 125312). With it, an accumulator that
  holds the 89 block sums of a row-by-column product, plus the product over the last 76 positions, plus the bias,
  is the whole product plus the bias: the kernel's features are the reference's.
-/
import proofs.«102448_j19670950215787_1_alg».proof.Proof.Spec
import proofs.«102448_j19670950215787_1_alg».proof.Proof.KFeat
import proofs.«102448_j19670950215787_1_alg».proof.Proof.LibPlainDot
import proofs.«102448_j19670950215787_1_alg».proof.Proof.Gen.KernelIdeal
import proofs.«102448_j19670950215787_1_alg».proof.Proof.Gen.ReferenceIdeal
import Idealize.ShloMosaic.Lib.ValueIdx
import Idealize.ShloMosaic.Lib.KernelVsHost
import Idealize.ShloMosaic.Lib.Pipeline.Value
import Mathlib.Algebra.BigOperators.Fin
import Mathlib.Algebra.BigOperators.Intervals

open scoped BigOperators

noncomputable section

namespace Cert.KV

open Cert.KernelIdeal Idealize.ShloMosaic Idealize.ShloMosaic.ValueIdx

/-! ## Finite sums in blocks -/

/-- A sum over the first `n · b` naturals is the sum over `n` consecutive blocks of `b`. -/
theorem sum_range_blocks {M : Type*} [AddCommMonoid M] (f : ℕ → M) (b : ℕ) :
    ∀ n : ℕ, ∑ k ∈ Finset.range (n * b), f k = ∑ t ∈ Finset.range n, ∑ j ∈ Finset.range b, f (b * t + j)
  | 0 => by simp
  | n + 1 => by
    rw [Nat.succ_mul, Finset.sum_range_add, sum_range_blocks f b n, Finset.sum_range_succ, Nat.mul_comm b n]

/-- A sum over the first `n · b + r` naturals: `n` blocks of `b`, then the last `r`. -/
theorem sum_range_split {M : Type*} [AddCommMonoid M] (f : ℕ → M) (n b r : ℕ) :
    ∑ k ∈ Finset.range (n * b + r), f k
      = (∑ t ∈ Finset.range n, ∑ j ∈ Finset.range b, f (b * t + j)) + ∑ j ∈ Finset.range r, f (n * b + j) := by
  rw [Finset.sum_range_add, sum_range_blocks]

/-- The same over finite index types, the total `N` and the blocks' end `c` given by equations. -/
theorem sum_fin_split {M : Type*} [AddCommMonoid M] (f : ℕ → M) (n b r N c : ℕ) (hc : c = n * b) (hN : N = c + r) :
    ∑ k : Fin N, f k.val = (∑ t : Fin n, ∑ j : Fin b, f (b * t.val + j.val)) + ∑ j : Fin r, f (c + j.val) := by
  subst hN hc
  rw [Fin.sum_univ_eq_sum_range (fun k => f k), Fin.sum_univ_eq_sum_range (fun j => f (n * b + j)),
    Fin.sum_univ_eq_sum_range (fun t => ∑ j : Fin b, f (b * t + j.val)), sum_range_split]
  refine congrArg (· + _) (Finset.sum_congr rfl fun t _ => ?_)
  exact (Fin.sum_univ_eq_sum_range (fun j => f (b * t + j)) b).symm

/-- The 125388 positions: 89 blocks of 1408, then the last 76. -/
theorem sum_split {M : Type*} [AddCommMonoid M] (f : ℕ → M) :
    ∑ k : Fin 125388, f k.val
      = (∑ t : Fin 89, ∑ j : Fin 1408, f (1408 * t.val + j.val)) + ∑ j : Fin 76, f (125312 + j.val) :=
  sum_fin_split f 89 1408 76 125388 125312 (by norm_num) (by norm_num)

/-! ## The features -/

/-- The bias along every row, read at one element: the two host broadcasts give the bias of the column. -/
theorem bias_apply (b : FVec Ideal S256 .f32) (p : Fin 1024) (q : Fin 256) :
    broadcastInDim Cert.ReferenceIdeal.S1024x256 ![0, 1] Cert.ReferenceIdeal.Gen.bcast_S1x256_S1024x256_0_1
        (broadcastInDim Cert.ReferenceIdeal.S1x256 ![1] Cert.ReferenceIdeal.Gen.bcast_S256_S1x256_1 b) (ix2 p q)
      = b (ix1 q) := by
  rw [broadcastInDim_oneRow_apply]
  refine broadcastInDim_apply ![1] _ b (ix2 (0 : Fin 1) q) (ix1 q) ?_
  intro a
  match a with
  | ⟨0, _⟩ => rfl

/-- The whole product at one element, its terms written with the row and the column as functions of a natural
    position: every position of the sum is inside the contracted axis. -/
theorem dot_apply_nat (x : FVec Ideal S1024x125388 .f32) (W : FVec Ideal S125388x256 .f32) (p : Fin 1024) (q : Fin 256) :
    Host.dotGeneral (F := Ideal) Cert.ReferenceIdeal.dot_S1024x125388_S125388x256_S1024x256_1_0_0_1_n_n none x W (ix2 p q)
      = ∑ k : Fin 125388, rowN x p k.val * colN W k.val q := by
  rw [PlainDot.dotGeneral_apply (K := 125388) Cert.ReferenceIdeal.dot_S1024x125388_S125388x256_S1024x256_1_0_0_1_n_n
    rfl rfl rfl rfl rfl rfl rfl rfl none x W p q]
  refine Finset.sum_congr rfl fun k _ => ?_
  unfold rowN colN
  rw [dif_pos k.isLt, dif_pos k.isLt]

theorem feat_eq_of (x : FVec Ideal S1024x125388 .f32) (W : FVec Ideal S125388x256 .f32) (b : FVec Ideal S256 .f32)
    (xt : FVec Ideal S1024x76 .f32) (wt : FVec Ideal S76x256 .f32) (acc : FVec Ideal S1024x256 .f32)
    (hacc : ∀ (p : Fin 1024) (q : Fin 256), acc (ix2 p q) = ∑ t : Fin 89, ∑ j : Fin 1408, rowN x p (1408 * t.val + j.val) * colN W (1408 * t.val + j.val) q)
    (hxt : ∀ (p : Fin 1024) (j : Fin 76), xt (ix2 p j) = rowN x p (125312 + j.val))
    (hwt : ∀ (j : Fin 76) (q : Fin 256), wt (ix2 j q) = colN W (125312 + j.val) q) :
    featK xt wt acc b = Cert.Spec.feat (F := Ideal) x W b := by
  funext j
  obtain ⟨p, q, rfl⟩ : ∃ (p : Fin 1024) (q : Fin 256), j = ix2 p q := ⟨j 0, j 1, eq_ix2 j⟩
  unfold featK Cert.Spec.feat
  rw [addf_apply, bias_apply, dot_apply_nat, sum_split (fun n => rowN x p n * colN W n q)]
  show acc (ix2 p q) + ∑ k : Fin 76, xt (ix2 p k) * wt (ix2 k q) + b (ix1 q) = _
  rw [hacc p q]
  refine congrArg (· + b (ix1 q)) (congrArg (_ + ·) (Finset.sum_congr rfl fun k _ => ?_))
  rw [hxt p k, hwt k q]

end Cert.KV

end
-- ==== Proof.KBlocks.lean ====
/-
  What the last point's unmoving windows hold, in terms of the argument arrays.

  Windows 3, 4 and 5 stage three arrays that are cut from the arguments before the region is entered: columns
  125312 … 125387 of each of the two inputs and rows 125312 … 125387 of the input matrix, the 76 positions of the
  contracted axis that the 89 blocks of 1408 leave over (89 · 1408 = 125312, 125312 + 76 = 125388). Windows 6 … 12
  stage the bias and the small layers' matrices and biases whole. Each of these windows has one block, the whole of
  its array at block index 0, so a read through the window is a read of the array; for windows 3 … 5 the array is
  the cut, which at position (p, j) is the argument at (p, 125312 + j) (resp. at (125312 + j, q) for the matrix).
-/
import proofs.«102448_j19670950215787_1_alg».proof.Proof.BodyDefs
import proofs.«102448_j19670950215787_1_alg».proof.Proof.KFeat
import Idealize.ShloMosaic.Lib.StableHlo.Run
import Idealize.ShloMosaic.Lib.ValueLayout
import Idealize.ShloMosaic.Lib.Pipeline.Value

noncomputable section

namespace Cert.KV

open Cert.KernelIdeal Cert.KernelIdeal.Gen Cert.KI
open Idealize.ShloMosaic Idealize.ShloMosaic.TcCoe Idealize.ShloMosaic.ValueIdx Idealize.SL.Sem

variable (m : (ℓ : Loc nD τ sig) → Buf (Elt Ideal) ℓ) (c : Dev nD)

/-! ## The three cuts as the region finds them -/

/-- The first input's last 76 columns: the array the first operation before the region writes. -/
private theorem V_main_v0 : (V m c main_v0 : S1024x76.Idx → EReal)
    = extractStridedSlice S1024x76 ![0, 125312] (m ((c : Thread nD τ).loc main_arg0))
        slices_S1024x125388_S1024x76_0_125312 := by
  dsimp only [Gen.V, Gen.hostOps0]
  after_results

/-- The second input's last 76 columns. -/
private theorem V_main_v1 : (V m c main_v1 : S1024x76.Idx → EReal)
    = extractStridedSlice S1024x76 ![0, 125312] (m ((c : Thread nD τ).loc main_arg1))
        slices_S1024x125388_S1024x76_0_125312 := by
  dsimp only [Gen.V, Gen.hostOps0]
  after_results

/-- The input matrix's last 76 rows. -/
private theorem V_main_v2 : (V m c main_v2 : S76x256.Idx → EReal)
    = extractStridedSlice S76x256 ![125312, 0] (m ((c : Thread nD τ).loc main_arg2))
        slices_S125388x256_S76x256_125312_0 := by
  dsimp only [Gen.V, Gen.hostOps0]
  after_results

/-! ## A window over a whole array at block index 0 reads the array -/

private theorem iblk3_eq : (iblk m c 3 tLast : S1024x76.Idx → EReal) = V m c main_v0 := by
  have hz : (fun a => (win0_3.index tLast) a * main_v0.ty.shape.size a) = fun _ => 0 :=
    funext fun a => by fin_cases a <;> decide
  exact Memref.read_access_unit_zero (Elt Ideal) main_v0 hz _ _

private theorem iblk4_eq : (iblk m c 4 tLast : S1024x76.Idx → EReal) = V m c main_v1 := by
  have hz : (fun a => (win0_4.index tLast) a * main_v1.ty.shape.size a) = fun _ => 0 :=
    funext fun a => by fin_cases a <;> decide
  exact Memref.read_access_unit_zero (Elt Ideal) main_v1 hz _ _

private theorem iblk5_eq : (iblk m c 5 tLast : S76x256.Idx → EReal) = V m c main_v2 := by
  have hz : (fun a => (win0_5.index tLast) a * main_v2.ty.shape.size a) = fun _ => 0 :=
    funext fun a => by fin_cases a <;> decide
  exact Memref.read_access_unit_zero (Elt Ideal) main_v2 hz _ _

/-! ## The remainder's three blocks, element by element -/

/-- Window 3 at (p, j) is the first input at row p, position 125312 + j of the contracted axis. -/
theorem tailX1_apply (p : Fin 1024) (j : Fin 76) :
    iblk m c 3 tLast (ix2 p j) = rowN (m ((c : Thread nD τ).loc main_arg0)) p (125312 + j.val) := by
  have h := congrFun ((iblk3_eq m c).trans (V_main_v0 m c)) (ix2 p j)
  rw [h, slice2_axis1_eq]
  unfold rowN
  rw [dif_pos (by omega : 125312 + j.val < 125388)]

/-- Window 4 at (p, j) is the second input at row p, position 125312 + j of the contracted axis. -/
theorem tailX2_apply (p : Fin 1024) (j : Fin 76) :
    iblk m c 4 tLast (ix2 p j) = rowN (m ((c : Thread nD τ).loc main_arg1)) p (125312 + j.val) := by
  have h := congrFun ((iblk4_eq m c).trans (V_main_v1 m c)) (ix2 p j)
  rw [h, slice2_axis1_eq]
  unfold rowN
  rw [dif_pos (by omega : 125312 + j.val < 125388)]

/-- Window 5 at (j, q) is the input matrix at position 125312 + j of the contracted axis, column q. -/
theorem tailW_apply (j : Fin 76) (q : Fin 256) :
    iblk m c 5 tLast (ix2 j q) = colN (m ((c : Thread nD τ).loc main_arg2)) (125312 + j.val) q := by
  have h := congrFun ((iblk5_eq m c).trans (V_main_v2 m c)) (ix2 j q)
  rw [h, slice2_axis0_eq]
  unfold colN
  rw [dif_pos (by omega : 125312 + j.val < 125388)]

/-! ## The small arrays, staged whole -/

theorem iblk6_eq : iblk m c 6 tLast = m ((c : Thread nD τ).loc main_arg3) := by
  have hz : (fun a => (win0_6.index tLast) a * main_arg3.ty.shape.size a) = fun _ => 0 :=
    funext fun a => by fin_cases a <;> decide
  exact (Memref.read_access_unit_zero (Elt Ideal) main_arg3 hz _ _).trans (V_main_arg3 m c)

theorem iblk7_eq : iblk m c 7 tLast = m ((c : Thread nD τ).loc main_arg4) := by
  have hz : (fun a => (win0_7.index tLast) a * main_arg4.ty.shape.size a) = fun _ => 0 :=
    funext fun a => by fin_cases a <;> decide
  exact (Memref.read_access_unit_zero (Elt Ideal) main_arg4 hz _ _).trans (V_main_arg4 m c)

theorem iblk8_eq : iblk m c 8 tLast = m ((c : Thread nD τ).loc main_arg5) := by
  have hz : (fun a => (win0_8.index tLast) a * main_arg5.ty.shape.size a) = fun _ => 0 :=
    funext fun a => by fin_cases a <;> decide
  exact (Memref.read_access_unit_zero (Elt Ideal) main_arg5 hz _ _).trans (V_main_arg5 m c)

theorem iblk9_eq : iblk m c 9 tLast = m ((c : Thread nD τ).loc main_arg6) := by
  have hz : (fun a => (win0_9.index tLast) a * main_arg6.ty.shape.size a) = fun _ => 0 :=
    funext fun a => by fin_cases a <;> decide
  exact (Memref.read_access_unit_zero (Elt Ideal) main_arg6 hz _ _).trans (V_main_arg6 m c)

theorem iblk10_eq : iblk m c 10 tLast = m ((c : Thread nD τ).loc main_arg7) := by
  have hz : (fun a => (win0_10.index tLast) a * main_arg7.ty.shape.size a) = fun _ => 0 :=
    funext fun a => by fin_cases a <;> decide
  exact (Memref.read_access_unit_zero (Elt Ideal) main_arg7 hz _ _).trans (V_main_arg7 m c)

theorem iblk11_eq : iblk m c 11 tLast = m ((c : Thread nD τ).loc main_arg8) := by
  have hz : (fun a => (win0_11.index tLast) a * main_arg8.ty.shape.size a) = fun _ => 0 :=
    funext fun a => by fin_cases a <;> decide
  exact (Memref.read_access_unit_zero (Elt Ideal) main_arg8 hz _ _).trans (V_main_arg8 m c)

theorem iblk12_eq : iblk m c 12 tLast = m ((c : Thread nD τ).loc main_arg9) := by
  have hz : (fun a => (win0_12.index tLast) a * main_arg9.ty.shape.size a) = fun _ => 0 :=
    funext fun a => by fin_cases a <;> decide
  exact (Memref.read_access_unit_zero (Elt Ideal) main_arg9 hz _ _).trans (V_main_arg9 m c)

end Cert.KV

end
-- ==== Proof.KOut.lean ====
/-
  The kernel's result is the network's function of the argument arrays, at the ideal values.

  The last point's arithmetic is the reference's own spelling applied to the two feature arrays; each feature array —
  the accumulator's 89 block sums, plus the product over the last 76 positions, plus the bias — is the whole
  125388-term product plus the bias, because 125388 = 89 · 1408 + 76 and a finite sum may be taken block by block.
-/
import proofs.«102448_j19670950215787_1_alg».proof.Proof.KTail
import proofs.«102448_j19670950215787_1_alg».proof.Proof.KAcc
import proofs.«102448_j19670950215787_1_alg».proof.Proof.KSplit
import proofs.«102448_j19670950215787_1_alg».proof.Proof.KBlocks

noncomputable section

namespace Cert.KV

open Cert.KernelIdeal Cert.KernelIdeal.Gen Cert.KI
open Idealize.ShloMosaic Idealize.ShloMosaic.TcCoe Idealize.ShloMosaic.ValueIdx Idealize.SL.Sem

variable (m : (ℓ : Loc nD τ sig) → Buf (Elt Ideal) ℓ) (c : Dev nD)

/-- What the last point stores is `G` of the ten argument arrays. -/
theorem OUT_eq :
    OUT (F := Ideal) m c
      = Cert.Spec.G (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) := by
  unfold OUT Cert.Spec.G
  rw [iblk6_eq, iblk7_eq, iblk8_eq, iblk9_eq, iblk10_eq, iblk11_eq, iblk12_eq, kernel_tail_eq,
    feat_eq_of _ _ _ _ _ _ (acc1_apply m c) (tailX1_apply m c) (tailW_apply m c),
    feat_eq_of _ _ _ _ _ _ (acc2_apply m c) (tailX2_apply m c) (tailW_apply m c)]

end Cert.KV

end
-- ==== Proof.lean ====
/-
  The certificate's proof.

  The three frames: the two kernel programs run by the library's frame rule for a pipeline that carries scratch
  buffers between grid points — the body run symbolically at the first, a middle and the last point, the two
  accumulators named between points as the block sums so far —, and the reference by its operations' run. Nothing
  was rewritten by the idealization. The algebraic claim: the kernel's result array ends at what the last point
  stores, which is the network's function `G` of the argument arrays (the 125388-term products taken as 89 blocks of
  1408 and a remainder of 76), and the reference's result is `G` by its own text.
-/
import proofs.«102448_j19670950215787_1_alg».proof.Defs
import proofs.«102448_j19670950215787_1_alg».proof.Proof.Gen.Kernel
import proofs.«102448_j19670950215787_1_alg».proof.Proof.Gen.KernelIdeal
import proofs.«102448_j19670950215787_1_alg».proof.Proof.Gen.ReferenceIdeal
import proofs.«102448_j19670950215787_1_alg».proof.Proof.Gen.ReferenceIdeal.Run
import proofs.«102448_j19670950215787_1_alg».proof.Proof.Gen.Pre_finite_inputs
import proofs.«102448_j19670950215787_1_alg».proof.Proof.Run
import proofs.«102448_j19670950215787_1_alg».proof.Proof.RunB
import proofs.«102448_j19670950215787_1_alg».proof.Proof.KOut
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ =>
  Cert.Kernel.Gen.frame_of m ρ (Cert.KB.dats m) (Cert.KB.A_eq m) (Cert.KB.run_main (F := Bits) m ρ)

/-- So does the idealized kernel. -/
theorem frame_ki : Cert.frame_KernelIdeal := fun m ρ _ =>
  Cert.KernelIdeal.Gen.frame_of m ρ (Cert.KI.dats m) (Cert.KI.A_eq m) (Cert.KI.run_main (F := Ideal) m ρ)

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with one result: `G` of the arguments. -/
theorem algebraic : Cert.algebraic_KernelIdeal_ReferenceIdeal := by
  intro m ρ m' ρ' _ hagree
  refine ⟨fun c => Cert.KI.OUT (F := Ideal) m c, ?_, ?_⟩
  · exact (θ_run Cert.KernelIdeal.defs _ _).mono
      (fun _ h c => ⟨((h c).1 13).trans (Cert.KI.finalA m c),
        ((h c).1 0).trans (((Cert.KI.dats m 0 c).arrAt_in 0 rfl _).trans ((Cert.KI.A_eq m c 0).trans (Cert.KernelIdeal.Gen.V_main_arg0 m c))),
        ((h c).1 1).trans (((Cert.KI.dats m 0 c).arrAt_in 1 rfl _).trans ((Cert.KI.A_eq m c 1).trans (Cert.KernelIdeal.Gen.V_main_arg1 m c))),
        ((h c).1 2).trans (((Cert.KI.dats m 0 c).arrAt_in 2 rfl _).trans ((Cert.KI.A_eq m c 2).trans (Cert.KernelIdeal.Gen.V_main_arg2 m c))),
        ((h c).1 6).trans (((Cert.KI.dats m 0 c).arrAt_in 6 rfl _).trans ((Cert.KI.A_eq m c 6).trans (Cert.KernelIdeal.Gen.V_main_arg3 m c))),
        ((h c).1 7).trans (((Cert.KI.dats m 0 c).arrAt_in 7 rfl _).trans ((Cert.KI.A_eq m c 7).trans (Cert.KernelIdeal.Gen.V_main_arg4 m c))),
        ((h c).1 8).trans (((Cert.KI.dats m 0 c).arrAt_in 8 rfl _).trans ((Cert.KI.A_eq m c 8).trans (Cert.KernelIdeal.Gen.V_main_arg5 m c))),
        ((h c).1 9).trans (((Cert.KI.dats m 0 c).arrAt_in 9 rfl _).trans ((Cert.KI.A_eq m c 9).trans (Cert.KernelIdeal.Gen.V_main_arg6 m c))),
        ((h c).1 10).trans (((Cert.KI.dats m 0 c).arrAt_in 10 rfl _).trans ((Cert.KI.A_eq m c 10).trans (Cert.KernelIdeal.Gen.V_main_arg7 m c))),
        ((h c).1 11).trans (((Cert.KI.dats m 0 c).arrAt_in 11 rfl _).trans ((Cert.KI.A_eq m c 11).trans (Cert.KernelIdeal.Gen.V_main_arg8 m c))),
        ((h c).1 12).trans (((Cert.KI.dats m 0 c).arrAt_in 12 rfl _).trans ((Cert.KI.A_eq m c 12).trans (Cert.KernelIdeal.Gen.V_main_arg9 m c)))⟩)
      (Cert.KI.run_main (F := Ideal) m ρ)
  · refine (θ_run Cert.ReferenceIdeal.defs _ _).mono (fun _ h c => ⟨(h c).1.trans ?_, (h c).2⟩)
      (Cert.ReferenceIdeal.Value.run (F := Ideal) m' ρ')
    refine Eq.trans ?_ (Cert.KV.OUT_eq m c).symm
    rw [← (hagree c).1, ← (hagree c).2.1, ← (hagree c).2.2.1, ← (hagree c).2.2.2.1, ← (hagree c).2.2.2.2.1,
      ← (hagree c).2.2.2.2.2.1, ← (hagree c).2.2.2.2.2.2.1, ← (hagree c).2.2.2.2.2.2.2.1, ← (hagree c).2.2.2.2.2.2.2.2.1,
      ← (hagree c).2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
